-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x1024 : Shape := ⟨2, ![2048, 1024]⟩
abbrev S1024 : Shape := ⟨1, ![1024]⟩
abbrev S6x1024 : Shape := ⟨2, ![6, 1024]⟩
abbrev S5x1024x1024 : Shape := ⟨3, ![5, 1024, 1024]⟩
abbrev S1024x2048 : Shape := ⟨2, ![1024, 2048]⟩
abbrev S2048 : Shape := ⟨1, ![2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S6x1024 : S_.BroadcastsInDim S6x1024 (![] : Fin 0 → Fin S6x1024.rank)
  reducesTo_S6x1024_S_d0_1 : S6x1024.ReducesTo [0, 1] S_
  bcast_S_S5x1024x1024 : S_.BroadcastsInDim S5x1024x1024 (![] : Fin 0 → Fin S5x1024x1024.rank)
  reducesTo_S5x1024x1024_S_d0_1_2 : S5x1024x1024.ReducesTo [0, 1, 2] S_
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S5x1024x1024 .f32) (main_arg5 : FVec F S1024x2048 .f32) (main_arg6 : FVec F S2048 .f32) (main_v13 : IVec S_ 1) (main_v16 : IVec S6x1024 1) : IVec S_ 1 :=
  let main_c_5 : IVec S_ 1 := constantI S_ 1 1#1
  let main_v17 : IVec S_ 1 := (fun x v => Host.reduce IntOp.andi x v reducesTo_S6x1024_S_d0_1 h_S_) main_v16 main_c_5
  let main_v18 : IVec S_ 1 := andi main_v13 main_v17
  let main_v19 : FVec F S5x1024x1024 .f32 := Host.absf main_arg4
  let main_cst_6 : FVec F S_ .f32 := constant S_ .f32 0x7F800000#32
  let main_v20 : FVec F S5x1024x1024 .f32 := broadcastInDim S5x1024x1024 ![] bcast_S_S5x1024x1024 main_cst_6
  let main_v21 : IVec S5x1024x1024 1 := cmpf .olt main_v19 main_v20
  let main_c_7 : IVec S_ 1 := constantI S_ 1 1#1
  let main_v22 : IVec S_ 1 := (fun x v => Host.reduce IntOp.andi x v reducesTo_S5x1024x1024_S_d0_1_2 h_S_) main_v21 main_c_7
  let main_v23 : IVec S_ 1 := andi main_v18 main_v22
  let main_v24 : FVec F S1024x2048 .f32 := Host.absf main_arg5
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : FVec F S4x4096x2048 .f32) (main_arg1 : FVec F S2048x1024 .f32) (main_arg2 : FVec F S1024 .f32) (main_arg3 : FVec F S6x1024 .f32) (main_arg4 : FVec F S5x1024x1024 .f32) (main_arg5 : FVec F S1024x2048 .f32) (main_arg6 : FVec F S2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S6x1024 .f32 := Host.absf main_arg3
  let main_cst_4 : FVec F S_ .f32 := constant S_ .f32 0x7F800000#32
  let main_v15 : FVec F S6x1024 .f32 := broadcastInDim S6x1024 ![] bcast_S_S6x1024 main_cst_4
  let main_v16 : IVec S6x1024 1 := cmpf .olt main_v14 main_v15
  fn_part1 (F := F) main_arg4 main_arg5 main_arg6 main_v13 main_v16
-- ==== Kernel.lean ====
abbrev S4x4096x2048 : Shape := ⟨3, ![4, 4096, 2048]⟩
abbrev S2048x1024 : Shape := ⟨2, ![2048, 1024]⟩
abbrev S1024 : Shape := ⟨1, ![1024]⟩
abbrev S6x1024 : Shape := ⟨2, ![6, 1024]⟩
abbrev S5x1024x1024 : Shape := ⟨3, ![5, 1024, 1024]⟩
abbrev S1024x2048 : Shape := ⟨2, ![1024, 2048]⟩
abbrev S2048 : Shape := ⟨1, ![2048]⟩
abbrev S16384x2048 : Shape := ⟨2, ![16384, 2048]⟩
abbrev S256x2048 : Shape := ⟨2, ![256, 2048]⟩
abbrev S256x1024 : Shape := ⟨2, ![256, 1024]⟩
abbrev S1x1024 : Shape := ⟨2, ![1, 1024]⟩
abbrev S1x1024x1024 : Shape := ⟨3, ![1, 1024, 1024]⟩
abbrev S1024x1024 : Shape := ⟨2, ![1024, 1024]⟩
abbrev S1x2048 : Shape := ⟨2, ![1, 2048]⟩

abbrev nBuf : Space → Nat
  | .hbm => 13
  | .vmem => 13
  | .smem => 0
  | _ => 0

abbrev bufTy : (tb : Table) → Fin (tcTables nBuf tb) → BufTy
  | .hbm, ⟨0, _⟩ => ⟨S4x4096x2048, .f32⟩
  | .hbm, ⟨1, _⟩ => ⟨S2048x1024, .f32⟩
  | .hbm, ⟨2, _⟩ => ⟨S1024, .f32⟩
  | .hbm, ⟨3, _⟩ => ⟨S6x1024, .f32⟩
  | .hbm, ⟨4, _⟩ => ⟨S5x1024x1024, .f32⟩
  | .hbm, ⟨5, _⟩ => ⟨S1024x2048, .f32⟩
  | .hbm, ⟨6, _⟩ => ⟨S2048, .f32⟩
  | .hbm, ⟨7, _⟩ => ⟨S16384x2048, .f32⟩
  | .hbm, ⟨8, _⟩ => ⟨S2048x1024, .bf16⟩
  | .hbm, ⟨9, _⟩ => ⟨S5x1024x1024, .bf16⟩
  | .hbm, ⟨10, _⟩ => ⟨S1024x2048, .bf16⟩
  | .hbm, ⟨11, _⟩ => ⟨S16384x2048, .f32⟩
  | .hbm, ⟨12, _⟩ => ⟨S4x4096x2048, .f32⟩
  | .local _ .vmem, ⟨0, _⟩ => ⟨S256x2048, .f32⟩
  | .local _ .vmem, ⟨1, _⟩ => ⟨S256x2048, .f32⟩
  | .local _ .vmem, ⟨2, _⟩ => ⟨S2048x1024, .bf16⟩
  | .local _ .vmem, ⟨3, _⟩ => ⟨S1024, .f32⟩
  | .local _ .vmem, ⟨4, _⟩ => ⟨S6x1024, .f32⟩
  | .local _ .vmem, ⟨5, _⟩ => ⟨S5x1024x1024, .bf16⟩
  | .local _ .vmem, ⟨6, _⟩ => ⟨S1024x2048, .bf16⟩
  | .local _ .vmem, ⟨7, _⟩ => ⟨S2048, .f32⟩
  | .local _ .vmem, ⟨8, _⟩ => ⟨S256x2048, .f32⟩
  | .local _ .vmem, ⟨9, _⟩ => ⟨S256x2048, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S4x4096x2048_S16384x2048 : S4x4096x2048.ShapeCasts S16384x2048
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S6x1024_S1x1024_0_0 : ∀ a, (![0, 0] : Fin 2 → Nat) a + S1x1024.size a ≤ S6x1024.size a
  h_S1x1024 : 0 < S1x1024.numel
  shapeCasts_S1x1024_S1024 : S1x1024.ShapeCasts S1024
  inb_S5x1024x1024_S1x1024x1024_0_0_0 : ∀ a, (![0, 0, 0] : Fin 3 → Nat) a + S1x1024x1024.size a ≤ S5x1024x1024.size a
  h_S1x1024x1024 : 0 < S1x1024x1024.numel
  shapeCasts_S1x1024x1024_S1024x1024 : S1x1024x1024.ShapeCasts S1024x1024
  inb_S6x1024_S1x1024_1_0 : ∀ a, (![1, 0] : Fin 2 → Nat) a + S1x1024.size a ≤ S6x1024.size a
  inb_S5x1024x1024_S1x1024x1024_1_0_0 : ∀ a, (![1, 0, 0] : Fin 3 → Nat) a + S1x1024x1024.size a ≤ S5x1024x1024.size a
  inb_S6x1024_S1x1024_2_0 : ∀ a, (![2, 0] : Fin 2 → Nat) a + S1x1024.size a ≤ S6x1024.size a
  inb_S5x1024x1024_S1x1024x1024_2_0_0 : ∀ a, (![2, 0, 0] : Fin 3 → Nat) a + S1x1024x1024.size a ≤ S5x1024x1024.size a
  inb_S6x1024_S1x1024_3_0 : ∀ a, (![3, 0] : Fin 2 → Nat) a + S1x1024.size a ≤ S6x1024.size a
  inb_S5x1024x1024_S1x1024x1024_3_0_0 : ∀ a, (![3, 0, 0] : Fin 3 → Nat) a + S1x1024x1024.size a ≤ S5x1024x1024.size a
  inb_S6x1024_S1x1024_4_0 : ∀ a, (![4, 0] : Fin 2 → Nat) a + S1x1024.size a ≤ S6x1024.size a
  inb_S5x1024x1024_S1x1024x1024_4_0_0 : ∀ a, (![4, 0, 0] : Fin 3 → Nat) a + S1x1024x1024.size a ≤ S5x1024x1024.size a
  inb_S6x1024_S1x1024_5_0 : ∀ a, (![5, 0] : Fin 2 → Nat) a + S1x1024.size a ≤ S6x1024.size a
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S256x2048 : S1x2048.Broadcasts S256x2048
  shapeCasts_S16384x2048_S4x4096x2048 : S16384x2048.ShapeCasts S4x4096x2048
  dot_S256x2048_S2048x1024_S256x1024_1_0_0_1_n_n_wf : DotDims.WF S256x2048 S2048x1024 S256x1024 [1] [0] [0] [1] [] []
  dot_S256x1024_S1024x1024_S256x1024_1_0_0_1_n_n_wf : DotDims.WF S256x1024 S1024x1024 S256x1024 [1] [0] [0] [1] [] []
  dot_S256x1024_S1024x2048_S256x2048_1_0_0_1_n_n_wf : DotDims.WF S256x1024 S1024x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S16384x2048.size a
  hwx0_0 : ∀ i : grid0.Coords, EltTy.bits .f32 = 32 ∨ (Rect.block (s := S16384x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .bf16 = 32 ∨ (Rect.block (s := S2048x1024) S2048x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S6x1024.size a ≤ S6x1024.size a
  hwx0_3 : ∀ i : grid0.Coords, EltTy.bits .f32 = 32 ∨ (Rect.block (s := S6x1024) S6x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S5x1024x1024.size a ≤ S5x1024x1024.size a
  hwx0_4 : ∀ i : grid0.Coords, EltTy.bits .bf16 = 32 ∨ (Rect.block (s := S5x1024x1024) S5x1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S1024x2048.size a
  hwx0_5 : ∀ i : grid0.Coords, EltTy.bits .bf16 = 32 ∨ (Rect.block (s := S1024x2048) S1024x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048.size a ≤ S2048.size a
  hwx0_6 : ∀ i : grid0.Coords, EltTy.bits .f32 = 32 ∨ (Rect.block (s := S2048) S2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x2048.size a ≤ S16384x2048.size a
  hwx0_7 : ∀ i : grid0.Coords, EltTy.bits .f32 = 32 ∨ (Rect.block (s := S16384x2048) S256x2048.size (cc0_transform_7 i) (hinb0_7 i)).WholeWords (EltTy.packing .f32)

variable [Facts₀]

def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S6x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S5x1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S256x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S2048x1024 : Shape := ⟨2, ![2048, 1024]⟩
abbrev S1024 : Shape := ⟨1, ![1024]⟩
abbrev S6x1024 : Shape := ⟨2, ![6, 1024]⟩
abbrev S5x1024x1024 : Shape := ⟨3, ![5, 1024, 1024]⟩
abbrev S1024x2048 : Shape := ⟨2, ![1024, 2048]⟩
abbrev S2048 : Shape := ⟨1, ![2048]⟩
abbrev S4x4096x1024 : Shape := ⟨3, ![4, 4096, 1024]⟩
abbrev S1x1x1024 : Shape := ⟨3, ![1, 1, 1024]⟩
abbrev S_ : Shape := ⟨0, ![]⟩
abbrev S1x1024 : Shape := ⟨2, ![1, 1024]⟩
abbrev S1x1024x1024 : Shape := ⟨3, ![1, 1024, 1024]⟩
abbrev S1024x1024 : Shape := ⟨2, ![1024, 1024]⟩
abbrev S1x1x2048 : Shape := ⟨3, ![1, 1, 2048]⟩

abbrev nBuf : Space → Nat
  | .hbm => 85
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x1024, .f32⟩
  | .hbm, ⟨2, _⟩ => ⟨S1024, .f32⟩
  | .hbm, ⟨3, _⟩ => ⟨S6x1024, .f32⟩
  | .hbm, ⟨4, _⟩ => ⟨S5x1024x1024, .f32⟩
  | .hbm, ⟨5, _⟩ => ⟨S1024x2048, .f32⟩
  | .hbm, ⟨6, _⟩ => ⟨S2048, .f32⟩
  | .hbm, ⟨7, _⟩ => ⟨S4x4096x1024, .f32⟩
  | .hbm, ⟨8, _⟩ => ⟨S1x1x1024, .f32⟩
  | .hbm, ⟨9, _⟩ => ⟨S4x4096x1024, .f32⟩
  | .hbm, ⟨10, _⟩ => ⟨S4x4096x1024, .f32⟩
  | .hbm, ⟨11, _⟩ => ⟨S_, .f32⟩
  | .hbm, ⟨12, _⟩ => ⟨S4x4096x1024, .f32⟩
  | .hbm, ⟨13, _⟩ => ⟨S1x1024, .f32⟩
  | .hbm, ⟨14, _⟩ => ⟨S1024, .f32⟩
  | .hbm, ⟨15, _⟩ => ⟨S1x1x1024, .f32⟩
  | .hbm, ⟨16, _⟩ => ⟨S4x4096x1024, .f32⟩
  | .hbm, ⟨17, _⟩ => ⟨S4x4096x1024, .f32⟩
  | .hbm, ⟨18, _⟩ => ⟨S4x4096x1024, .f32⟩
  | .hbm, ⟨19, _⟩ => ⟨S1x1024x1024, .f32⟩
  | .hbm, ⟨20, _⟩ => ⟨S1024x1024, .f32⟩
  | .hbm, ⟨21, _⟩ => ⟨S4x4096x1024, .f32⟩
  | .hbm, ⟨22, _⟩ => ⟨S4x4096x1024, .f32⟩
  | .hbm, ⟨23, _⟩ => ⟨S4x4096x1024, .f32⟩
  | .hbm, ⟨24, _⟩ => ⟨S4x4096x1024, .f32⟩
  | .hbm, ⟨25, _⟩ => ⟨S1x1024, .f32⟩
  | .hbm, ⟨26, _⟩ => ⟨S1024, .f32⟩
  | .hbm, ⟨27, _⟩ => ⟨S1x1x1024, .f32⟩
  | .hbm, ⟨28, _⟩ => ⟨S4x4096x1024, .f32⟩
  | .hbm, ⟨29, _⟩ => ⟨S4x4096x1024, .f32⟩
  | .hbm, ⟨30, _⟩ => ⟨S4x4096x1024, .f32⟩
  | .hbm, ⟨31, _⟩ => ⟨S1x1024x1024, .f32⟩
  | .hbm, ⟨32, _⟩ => ⟨S1024x1024, .f32⟩
  | .hbm, ⟨33, _⟩ => ⟨S4x4096x1024, .f32⟩
  | .hbm, ⟨34, _⟩ => ⟨S4x4096x1024, .f32⟩
  | .hbm, ⟨35, _⟩ => ⟨S4x4096x1024, .f32⟩
  | .hbm, ⟨36, _⟩ => ⟨S4x4096x1024, .f32⟩
  | .hbm, ⟨37, _⟩ => ⟨S1x1024, .f32⟩
  | .hbm, ⟨38, _⟩ => ⟨S1024, .f32⟩
  | .hbm, ⟨39, _⟩ => ⟨S1x1x1024, .f32⟩
  | .hbm, ⟨40, _⟩ => ⟨S4x4096x1024, .f32⟩
  | .hbm, ⟨41, _⟩ => ⟨S4x4096x1024, .f32⟩
  | .hbm, ⟨42, _⟩ => ⟨S4x4096x1024, .f32⟩
  | .hbm, ⟨43, _⟩ => ⟨S1x1024x1024, .f32⟩
  | .hbm, ⟨44, _⟩ => ⟨S1024x1024, .f32⟩
  | .hbm, ⟨45, _⟩ => ⟨S4x4096x1024, .f32⟩
  | .hbm, ⟨46, _⟩ => ⟨S4x4096x1024, .f32⟩
  | .hbm, ⟨47, _⟩ => ⟨S4x4096x1024, .f32⟩
  | .hbm, ⟨48, _⟩ => ⟨S4x4096x1024, .f32⟩
  | .hbm, ⟨49, _⟩ => ⟨S1x1024, .f32⟩
  | .hbm, ⟨50, _⟩ => ⟨S1024, .f32⟩
  | .hbm, ⟨51, _⟩ => ⟨S1x1x1024, .f32⟩
  | .hbm, ⟨52, _⟩ => ⟨S4x4096x1024, .f32⟩
  | .hbm, ⟨53, _⟩ => ⟨S4x4096x1024, .f32⟩
  | .hbm, ⟨54, _⟩ => ⟨S4x4096x1024, .f32⟩
  | .hbm, ⟨55, _⟩ => ⟨S1x1024x1024, .f32⟩
  | .hbm, ⟨56, _⟩ => ⟨S1024x1024, .f32⟩
  | .hbm, ⟨57, _⟩ => ⟨S4x4096x1024, .f32⟩
  | .hbm, ⟨58, _⟩ => ⟨S4x4096x1024, .f32⟩
  | .hbm, ⟨59, _⟩ => ⟨S4x4096x1024, .f32⟩
  | .hbm, ⟨60, _⟩ => ⟨S4x4096x1024, .f32⟩
  | .hbm, ⟨61, _⟩ => ⟨S1x1024, .f32⟩
  | .hbm, ⟨62, _⟩ => ⟨S1024, .f32⟩
  | .hbm, ⟨63, _⟩ => ⟨S1x1x1024, .f32⟩
  | .hbm, ⟨64, _⟩ => ⟨S4x4096x1024, .f32⟩
  | .hbm, ⟨65, _⟩ => ⟨S4x4096x1024, .f32⟩
  | .hbm, ⟨66, _⟩ => ⟨S4x4096x1024, .f32⟩
  | .hbm, ⟨67, _⟩ => ⟨S1x1024x1024, .f32⟩
  | .hbm, ⟨68, _⟩ => ⟨S1024x1024, .f32⟩
  | .hbm, ⟨69, _⟩ => ⟨S4x4096x1024, .f32⟩
  | .hbm, ⟨70, _⟩ => ⟨S4x4096x1024, .f32⟩
  | .hbm, ⟨71, _⟩ => ⟨S4x4096x1024, .f32⟩
  | .hbm, ⟨72, _⟩ => ⟨S4x4096x1024, .f32⟩
  | .hbm, ⟨73, _⟩ => ⟨S1x1024, .f32⟩
  | .hbm, ⟨74, _⟩ => ⟨S1024, .f32⟩
  | .hbm, ⟨75, _⟩ => ⟨S1x1x1024, .f32⟩
  | .hbm, ⟨76, _⟩ => ⟨S4x4096x1024, .f32⟩
  | .hbm, ⟨77, _⟩ => ⟨S4x4096x1024, .f32⟩
  | .hbm, ⟨78, _⟩ => ⟨S4x4096x1024, .f32⟩
  | .hbm, ⟨79, _⟩ => ⟨S4x4096x1024, .f32⟩
  | .hbm, ⟨80, _⟩ => ⟨S4x4096x2048, .f32⟩
  | .hbm, ⟨81, _⟩ => ⟨S1x1x2048, .f32⟩
  | .hbm, ⟨82, _⟩ => ⟨S4x4096x2048, .f32⟩
  | .hbm, ⟨83, _⟩ => ⟨S4x4096x2048, .f32⟩
  | .hbm, ⟨84, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  bcast_S_S4x4096x1024 : S_.BroadcastsInDim S4x4096x1024 (![] : Fin 0 → Fin S4x4096x1024.rank)
  slices_S6x1024_S1x1024_0_0 : S6x1024.Slices ![0, 0] S1x1024
  shapeCasts_S1x1024_S1024 : S1x1024.ShapeCasts S1024
  slices_S5x1024x1024_S1x1024x1024_0_0_0 : S5x1024x1024.Slices ![0, 0, 0] S1x1024x1024
  shapeCasts_S1x1024x1024_S1024x1024 : S1x1024x1024.ShapeCasts S1024x1024
  slices_S6x1024_S1x1024_1_0 : S6x1024.Slices ![1, 0] S1x1024
  slices_S5x1024x1024_S1x1024x1024_1_0_0 : S5x1024x1024.Slices ![1, 0, 0] S1x1024x1024
  slices_S6x1024_S1x1024_2_0 : S6x1024.Slices ![2, 0] S1x1024
  slices_S5x1024x1024_S1x1024x1024_2_0_0 : S5x1024x1024.Slices ![2, 0, 0] S1x1024x1024
  slices_S6x1024_S1x1024_3_0 : S6x1024.Slices ![3, 0] S1x1024
  slices_S5x1024x1024_S1x1024x1024_3_0_0 : S5x1024x1024.Slices ![3, 0, 0] S1x1024x1024
  slices_S6x1024_S1x1024_4_0 : S6x1024.Slices ![4, 0] S1x1024
  slices_S5x1024x1024_S1x1024x1024_4_0_0 : S5x1024x1024.Slices ![4, 0, 0] S1x1024x1024
  slices_S6x1024_S1x1024_5_0 : S6x1024.Slices ![5, 0] S1x1024
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  dot_S4x4096x2048_S2048x1024_S4x4096x1024_2_0_01_1_n_n_wf : DotDims.WF S4x4096x2048 S2048x1024 S4x4096x1024 [2] [0] [0, 1] [1] [] []
  dot_S4x4096x1024_S1024x1024_S4x4096x1024_2_0_01_1_n_n_wf : DotDims.WF S4x4096x1024 S1024x1024 S4x4096x1024 [2] [0] [0, 1] [1] [] []
  dot_S4x4096x1024_S1024x2048_S4x4096x2048_2_0_01_1_n_n_wf : DotDims.WF S4x4096x1024 S1024x2048 S4x4096x2048 [2] [0] [0, 1] [1] [] []

variable [Facts₀]

def dot_S4x4096x2048_S2048x1024_S4x4096x1024_2_0_01_1_n_n : DotDims S4x4096x2048 S2048x1024 S4x4096x1024 where
  lhsContracting := [2]
  rhsContracting := [0]
  lhsNonContracting := [0, 1]
  rhsNonContracting := [1]
  lhsBatch := []
  rhsBatch := []
  wf := dot_S4x4096x2048_S2048x1024_S4x4096x1024_2_0_01_1_n_n_wf
def dot_S4x4096x1024_S1024x1024_S4x4096x1024_2_0_01_1_n_n : DotDims S4x4096x1024 S1024x1024 S4x4096x1024 where
  lhsContracting := [2]
  rhsContracting := [0]
  lhsNonContracting := [0, 1]
  rhsNonContracting := [1]
  lhsBatch := []
  rhsBatch := []
  wf := dot_S4x4096x1024_S1024x1024_S4x4096x1024_2_0_01_1_n_n_wf
def dot_S4x4096x1024_S1024x2048_S4x4096x2048_2_0_01_1_n_n : DotDims S4x4096x1024 S1024x2048 S4x4096x2048 where
  lhsContracting := [2]
  rhsContracting := [0]
  lhsNonContracting := [0, 1]
  rhsNonContracting := [1]
  lhsBatch := []
  rhsBatch := []
  wf := dot_S4x4096x1024_S1024x2048_S4x4096x2048_2_0_01_1_n_n_wf

class Facts : Prop extends Facts₀ where

variable [Facts]
-- ==== Proof.BodyTerm.lean ====
/-
  The kernel body's arithmetic at one grid point, stage by stage, as terms over the blocks it loads.

  The body keeps three [256, 1024] buffers: the projected rows `h`, the current power `p` of `h`, and the
  accumulator.  Each store of one of them is named here after what it holds, as the generated payload of that
  store applied to what the loads before it read: `hS` the projected rows, `q0 … q5` the powers h¹ … h⁶ as the
  power buffer successively holds them, `b1 … b11` the accumulator after each of its eleven updates (a power
  term, then for the first five degrees a cross term), and `blockTerm` the [256, 2048] block the body finally
  stores: the accumulator projected up, plus the bias, plus the loaded rows of `x`.

  Row `r` of the coefficient array and matrix `r` of the cross array are loaded through the unit-stride
  rectangles at offsets (r, 0) and (r, 0, 0): `coRow`, `crMat`.
-/
import proofs.«121496_j15994458211120_1_alg».proof.Proof.Gen.KernelIdeal.Skeleton
import Idealize.ShloMosaic.Lib.Pipeline.FrameBody

noncomputable section

open Idealize.ShloMosaic Idealize.SL.Sem

namespace Cert.KernelIdeal.Body

open Cert.KernelIdeal Cert.KernelIdeal.Gen

variable {F : FTy → Type} [FloatOps F]

/-- Coefficient row 0 … 5 as loaded: a [1, 1024] block of the [6, 1024] array. -/
def coRow0 (x3 : Vec F S6x1024 .f32) : Vec F S1x1024 .f32 := View.ld x3 (Rect.unit (s := S6x1024) ![0, 0] S1x1024.size inb_S6x1024_S1x1024_0_0)
def coRow1 (x3 : Vec F S6x1024 .f32) : Vec F S1x1024 .f32 := View.ld x3 (Rect.unit (s := S6x1024) ![1, 0] S1x1024.size inb_S6x1024_S1x1024_1_0)
def coRow2 (x3 : Vec F S6x1024 .f32) : Vec F S1x1024 .f32 := View.ld x3 (Rect.unit (s := S6x1024) ![2, 0] S1x1024.size inb_S6x1024_S1x1024_2_0)
def coRow3 (x3 : Vec F S6x1024 .f32) : Vec F S1x1024 .f32 := View.ld x3 (Rect.unit (s := S6x1024) ![3, 0] S1x1024.size inb_S6x1024_S1x1024_3_0)
def coRow4 (x3 : Vec F S6x1024 .f32) : Vec F S1x1024 .f32 := View.ld x3 (Rect.unit (s := S6x1024) ![4, 0] S1x1024.size inb_S6x1024_S1x1024_4_0)
def coRow5 (x3 : Vec F S6x1024 .f32) : Vec F S1x1024 .f32 := View.ld x3 (Rect.unit (s := S6x1024) ![5, 0] S1x1024.size inb_S6x1024_S1x1024_5_0)

/-- Cross matrix 0 … 4 as loaded: a [1, 1024, 1024] block of the [5, 1024, 1024] array. -/
def crMat0 (x4 : Vec F S5x1024x1024 .bf16) : Vec F S1x1024x1024 .bf16 := View.ld x4 (Rect.unit (s := S5x1024x1024) ![0, 0, 0] S1x1024x1024.size inb_S5x1024x1024_S1x1024x1024_0_0_0)
def crMat1 (x4 : Vec F S5x1024x1024 .bf16) : Vec F S1x1024x1024 .bf16 := View.ld x4 (Rect.unit (s := S5x1024x1024) ![1, 0, 0] S1x1024x1024.size inb_S5x1024x1024_S1x1024x1024_1_0_0)
def crMat2 (x4 : Vec F S5x1024x1024 .bf16) : Vec F S1x1024x1024 .bf16 := View.ld x4 (Rect.unit (s := S5x1024x1024) ![2, 0, 0] S1x1024x1024.size inb_S5x1024x1024_S1x1024x1024_2_0_0)
def crMat3 (x4 : Vec F S5x1024x1024 .bf16) : Vec F S1x1024x1024 .bf16 := View.ld x4 (Rect.unit (s := S5x1024x1024) ![3, 0, 0] S1x1024x1024.size inb_S5x1024x1024_S1x1024x1024_3_0_0)
def crMat4 (x4 : Vec F S5x1024x1024 .bf16) : Vec F S1x1024x1024 .bf16 := View.ld x4 (Rect.unit (s := S5x1024x1024) ![4, 0, 0] S1x1024x1024.size inb_S5x1024x1024_S1x1024x1024_4_0_0)

/-- The projected rows `h`, as the first buffer holds them throughout. -/
def hS (x0 : Vec F S256x2048 .f32) (x1 : Vec F S2048x1024 .bf16) (x2 : Vec F S1024 .f32) : FVec F S256x1024 .f32 := k0_pay6 x0 x1 x2
/-- The power buffer's first contents: `h` itself. -/
def q0 (x0 : Vec F S256x2048 .f32) (x1 : Vec F S2048x1024 .bf16) (x2 : Vec F S1024 .f32) : FVec F S256x1024 .f32 := k0_pay7 x0 x1 x2
/-- The power buffer after each multiplication by `h`: h², …, h⁶. -/
def q1 (x0 : Vec F S256x2048 .f32) (x1 : Vec F S2048x1024 .bf16) (x2 : Vec F S1024 .f32) : FVec F S256x1024 .f32 := k0_pay11 (q0 x0 x1 x2) (hS x0 x1 x2)
def q2 (x0 : Vec F S256x2048 .f32) (x1 : Vec F S2048x1024 .bf16) (x2 : Vec F S1024 .f32) : FVec F S256x1024 .f32 := k0_pay15 (q1 x0 x1 x2) (hS x0 x1 x2)
def q3 (x0 : Vec F S256x2048 .f32) (x1 : Vec F S2048x1024 .bf16) (x2 : Vec F S1024 .f32) : FVec F S256x1024 .f32 := k0_pay19 (q2 x0 x1 x2) (hS x0 x1 x2)
def q4 (x0 : Vec F S256x2048 .f32) (x1 : Vec F S2048x1024 .bf16) (x2 : Vec F S1024 .f32) : FVec F S256x1024 .f32 := k0_pay23 (k0_pay22 (q3 x0 x1 x2) (hS x0 x1 x2))
def q5 (x0 : Vec F S256x2048 .f32) (x1 : Vec F S2048x1024 .bf16) (x2 : Vec F S1024 .f32) : FVec F S256x1024 .f32 := k0_pay26 (q4 x0 x1 x2) (hS x0 x1 x2)

variable (x0 : Vec F S256x2048 .f32) (x1 : Vec F S2048x1024 .bf16) (x2 : Vec F S1024 .f32)
  (x3 : Vec F S6x1024 .f32) (x4 : Vec F S5x1024x1024 .bf16)

/-- The accumulator after the power term of degree 0 (from the zero fill), -/
def b1 : FVec F S256x1024 .f32 := k0_pay9 (q0 x0 x1 x2) (coRow0 x3) k0_pay8
/-- after the cross term of degree 0, -/
def b2 : FVec F S256x1024 .f32 := k0_pay10 (q0 x0 x1 x2) (crMat0 x4) (b1 x0 x1 x2 x3) (hS x0 x1 x2)
/-- after the power term of degree 1, -/
def b3 : FVec F S256x1024 .f32 := k0_pay12 (q1 x0 x1 x2) (coRow1 x3) (b2 x0 x1 x2 x3 x4)
/-- after the cross term of degree 1, -/
def b4 : FVec F S256x1024 .f32 := k0_pay14 (k0_pay13 (q1 x0 x1 x2) (crMat1 x4)) (b3 x0 x1 x2 x3 x4) (hS x0 x1 x2)
/-- after the power term of degree 2, -/
def b5 : FVec F S256x1024 .f32 := k0_pay16 (q2 x0 x1 x2) (coRow2 x3) (b4 x0 x1 x2 x3 x4)
/-- after the cross term of degree 2, -/
def b6 : FVec F S256x1024 .f32 := k0_pay18 (k0_pay17 (q2 x0 x1 x2) (crMat2 x4) (b5 x0 x1 x2 x3 x4) (hS x0 x1 x2))
/-- after the power term of degree 3, -/
def b7 : FVec F S256x1024 .f32 := k0_pay20 (q3 x0 x1 x2) (coRow3 x3) (b6 x0 x1 x2 x3 x4)
/-- after the cross term of degree 3, -/
def b8 : FVec F S256x1024 .f32 := k0_pay21 (q3 x0 x1 x2) (crMat3 x4) (b7 x0 x1 x2 x3 x4) (hS x0 x1 x2)
/-- after the power term of degree 4, -/
def b9 : FVec F S256x1024 .f32 := k0_pay24 (q4 x0 x1 x2) (coRow4 x3) (b8 x0 x1 x2 x3 x4)
/-- after the cross term of degree 4, -/
def b10 : FVec F S256x1024 .f32 := k0_pay25 (q4 x0 x1 x2) (crMat4 x4) (b9 x0 x1 x2 x3 x4) (hS x0 x1 x2)
/-- and after the power term of degree 5: the accumulator the up-projection reads. -/
def b11 : FVec F S256x1024 .f32 := k0_pay1 (q5 x0 x1 x2) (coRow5 x3) (b10 x0 x1 x2 x3 x4)

/-- The block the body stores: the accumulator projected up, plus the bias, plus the loaded rows. -/
def blockTerm (x5 : Vec F S1024x2048 .bf16) (x6 : Vec F S2048 .f32) : FVec F S256x2048 .f32 :=
  k0_pay3 (k0_pay4 x0) (b11 x0 x1 x2 x3 x4) x5 x6

end Cert.KernelIdeal.Body

end
-- ==== Proof.LibReadBack.lean ====
/-
  Reading a buffer back after several stores.

  A buffer that has been stored to several times holds, wherever the newest store reaches, the newest store's
  payload.  When the newest store covers the whole buffer (the unit-stride rectangle at zero offsets of the
  buffer's own sizes), a load of the whole buffer therefore reads exactly that payload, whatever the older stores
  were: the contents the stores leave are, index by index, the payload of the first store in the list (newest
  first) whose rectangle holds the index, and the newest store's rectangle holds every index.

  The one-store case is the library's; this is the same statement with a tail of older stores.
-/
import Idealize.ShloMosaic.Lib.Pipeline.Value

namespace ReadBack

open Idealize.ShloMosaic

variable {Val : EltTy → Type} {S : Shape} {e : EltTy}

/-- A load of the whole buffer after the stores `⟨whole, w⟩ :: L` (newest first) reads `w`. -/
theorem readCov_newest_whole [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl,
    View.ld_unit_zero rfl]

end ReadBack
-- ==== Proof.BodyPiece.lean ====
/-
  What the kernel body leaves in its output block, as a term over the blocks it loads.

  The body's run ends with one store covering the whole [256, 2048] output block, so the block holds that store's
  payload.  The payload reads the accumulator buffer, whose contents at that moment are the newest of its twelve
  stores (the zero fill and eleven updates), each covering the whole buffer; every load of one of the three
  buffers likewise reads back the payload of the newest store to it.  Reading the loads back one by one turns the
  run's result into `Body.blockTerm` of the loaded input blocks.
-/
import proofs.«121496_j15994458211120_1_alg».proof.Proof.Gen.KernelIdeal.Frame
import proofs.«121496_j15994458211120_1_alg».proof.Proof.BodyTerm
import proofs.«121496_j15994458211120_1_alg».proof.Proof.LibReadBack
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Body

open Cert.KernelIdeal Cert.KernelIdeal.Gen

variable {F : FTy → Type} [FloatOps F]

/-- Zero offsets at rank two and rank one, however they are spelt. -/
theorem zeroOff2 : (![0, 0] : Fin 2 → Nat) = fun _ => 0 := funext fun a => by fin_cases a <;> rfl
theorem zeroOff1 : (![0] : Fin 1 → Nat) = fun _ => 0 := funext fun a => by fin_cases a; rfl

/-- The output block after the body, whatever the staging memrefs: `blockTerm` of the loaded blocks. -/
theorem out_eq_blockTerm (c : Dev nD) (i : grid0.Coords) (arg1 : Memref sig .tc .vmem S256x2048 .f32) (harg1 : arg1.IsWhole) (arg2 : Memref sig .tc .vmem S2048x1024 .bf16) (harg2 : arg2.IsWhole) (arg3 : Memref sig .tc .vmem S1024 .f32) (harg3 : arg3.IsWhole) (arg4 : Memref sig .tc .vmem S6x1024 .f32) (harg4 : arg4.IsWhole) (arg5 : Memref sig .tc .vmem S5x1024x1024 .bf16) (harg5 : arg5.IsWhole) (arg6 : Memref sig .tc .vmem S1024x2048 .bf16) (harg6 : arg6.IsWhole) (arg7 : Memref sig .tc .vmem S2048 .f32) (harg7 : arg7.IsWhole) (arg8 : Memref sig .tc .vmem S256x2048 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .f32) (harg11 : arg11.IsWhole)
    (x0 : Vec F S256x2048 .f32) (x1 : Vec F S2048x1024 .bf16) (x2 : Vec F S1024 .f32) (x3 : Vec F S6x1024 .f32) (x4 : Vec F S5x1024x1024 .bf16) (x5 : Vec F S1024x2048 .bf16) (x6 : Vec F S2048 .f32) :
    out0_A_7 c i arg1 harg1 arg2 harg2 arg3 harg3 arg4 harg4 arg5 harg5 arg6 harg6 arg7 harg7 arg8 harg8 arg9 harg9 arg10 harg10 arg11 harg11 x0 x1 x2 x3 x4 x5 x6 = blockTerm x0 x1 x2 x3 x4 x5 x6 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 x0 x1 x2 x3 x4 x5 x6)]
  unfold kernelRun0_A
  dsimp only
  sl_unfold_words
  rw [View.canon_unit_zero zeroOff2]
  simp only [ReadBack.readCov_newest_whole (S := S256x1024) _ zeroOff2, View.readAt_eq_ld,
    harg1.read_unread, harg2.read_unread, harg3.read_unread, harg4.read_unread, harg5.read_unread,
    harg6.read_unread, harg7.read_unread,
    View.ld_unit_zero (S := S256x2048) zeroOff2, View.ld_unit_zero (S := S2048x1024) zeroOff2,
    View.ld_unit_zero (S := S1024x2048) zeroOff2, View.ld_unit_zero (S := S1024) zeroOff1,
    View.ld_unit_zero (S := S2048) zeroOff1]
  rfl

end Cert.KernelIdeal.Body

end
-- ==== Proof.Spec.lean ====
/-
  A low-rank polynomial adapter on one row, over the extended reals.

  One row `x` of length 2048 is projected down to length 1024,
      h j = (∑ k, x k * dw k j) + db j,
  and an accumulator is built from the powers of `h` (taken entry by entry): starting from zero, for the
  degrees i = 0 … 5 in order,
      acc ← acc + p * co i              with p = h^(i+1) entrywise,
      acc ← acc + (p · cr i) * h        for i < 5, where (p · w) j = ∑ k, p k * w k j,
      p   ← p * h.
  The row is then projected back up and added to itself:
      out d = ((∑ k, acc k * uw k d) + ub d) + x d.

  Every sum is a `Finset` sum over the contraction coordinate and every sum and product is written in the order in
  which both programs perform it, so no law of the extended reals is needed to compare either program with this
  function: each is this function, read at its own way of indexing rows.
-/
import Idealize.ShloMosaic.PureOps.Ideal
import Idealize.ShloMosaic.Lib.ValueIdx

noncomputable section

namespace PolyAdapter

open Idealize.ShloMosaic Idealize.ShloMosaic.ValueIdx

/-- The weights, each as a function of plain coordinates. -/
structure Weights where
  /-- the down-projection, 2048 × 1024 -/
  dw : Fin 2048 → Fin 1024 → EReal
  /-- its bias -/
  db : Fin 1024 → EReal
  /-- the six coefficient rows -/
  co : Fin 6 → Fin 1024 → EReal
  /-- the five cross matrices, each 1024 × 1024 -/
  cr : Fin 5 → Fin 1024 → Fin 1024 → EReal
  /-- the up-projection, 1024 × 2048 -/
  uw : Fin 1024 → Fin 2048 → EReal
  /-- its bias -/
  ub : Fin 2048 → EReal

/-- The zero both programs start the accumulator from: the word `+0.0`, kept as a word. -/
def zero : EReal := Ideal.ofBits .f32 0x00000000#32

/-- The down-projection of a row, with its bias. -/
def down (W : Weights) (x : Fin 2048 → EReal) : Fin 1024 → EReal :=
  fun j => (∑ k : Fin 2048, x k * W.dw k j) + W.db j

/-- The accumulator with a power term added: `acc + p * c`, entry by entry. -/
def withCoeff (acc p c : Fin 1024 → EReal) : Fin 1024 → EReal :=
  fun j => acc j + p j * c j

/-- The accumulator with a cross term added: `acc + (p · w) * h`. -/
def withCross (acc p h : Fin 1024 → EReal) (w : Fin 1024 → Fin 1024 → EReal) : Fin 1024 → EReal :=
  fun j => acc j + (∑ k : Fin 1024, p k * w k j) * h j

/-- The next power: `p * h`, entry by entry. -/
def times (p h : Fin 1024 → EReal) : Fin 1024 → EReal :=
  fun j => p j * h j

/-- The powers h², …, h⁶ of the projected row, entry by entry, each from the one before. -/
def p1 (h : Fin 1024 → EReal) : Fin 1024 → EReal := times h h
def p2 (h : Fin 1024 → EReal) : Fin 1024 → EReal := times (p1 h) h
def p3 (h : Fin 1024 → EReal) : Fin 1024 → EReal := times (p2 h) h
def p4 (h : Fin 1024 → EReal) : Fin 1024 → EReal := times (p3 h) h
def p5 (h : Fin 1024 → EReal) : Fin 1024 → EReal := times (p4 h) h

/-- The accumulator after degree 0: the power term then the cross term, from zero. -/
def a0 (W : Weights) (h : Fin 1024 → EReal) : Fin 1024 → EReal :=
  withCross (withCoeff (fun _ => zero) h (W.co 0)) h h (W.cr 0)
/-- … after degree 1, -/
def a1 (W : Weights) (h : Fin 1024 → EReal) : Fin 1024 → EReal :=
  withCross (withCoeff (a0 W h) (p1 h) (W.co 1)) (p1 h) h (W.cr 1)
/-- … after degree 2, -/
def a2 (W : Weights) (h : Fin 1024 → EReal) : Fin 1024 → EReal :=
  withCross (withCoeff (a1 W h) (p2 h) (W.co 2)) (p2 h) h (W.cr 2)
/-- … after degree 3, -/
def a3 (W : Weights) (h : Fin 1024 → EReal) : Fin 1024 → EReal :=
  withCross (withCoeff (a2 W h) (p3 h) (W.co 3)) (p3 h) h (W.cr 3)
/-- … after degree 4, -/
def a4 (W : Weights) (h : Fin 1024 → EReal) : Fin 1024 → EReal :=
  withCross (withCoeff (a3 W h) (p4 h) (W.co 4)) (p4 h) h (W.cr 4)
/-- and after degree 5, which has a power term only. -/
def acc (W : Weights) (h : Fin 1024 → EReal) : Fin 1024 → EReal :=
  withCoeff (a4 W h) (p5 h) (W.co 5)

/-- The up-projection of the accumulator, with its bias, plus the row itself. -/
def up (W : Weights) (a : Fin 1024 → EReal) (x : Fin 2048 → EReal) : Fin 2048 → EReal :=
  fun d => ((∑ k : Fin 1024, a k * W.uw k d) + W.ub d) + x d

/-- The adapter on one row. -/
def outRow (W : Weights) (x : Fin 2048 → EReal) : Fin 2048 → EReal :=
  up W (acc W (down W x)) x

/-- The six weight arrays as the adapter's weights: each array read at its coordinates. -/
def weightsOf (dw : (⟨2, ![2048, 1024]⟩ : Shape).Idx → EReal) (db : (⟨1, ![1024]⟩ : Shape).Idx → EReal)
    (co : (⟨2, ![6, 1024]⟩ : Shape).Idx → EReal) (cr : (⟨3, ![5, 1024, 1024]⟩ : Shape).Idx → EReal)
    (uw : (⟨2, ![1024, 2048]⟩ : Shape).Idx → EReal) (ub : (⟨1, ![2048]⟩ : Shape).Idx → EReal) : Weights where
  dw k j := dw (ix2 k j)
  db j := db (ix1 j)
  co i j := co (ix2 i j)
  cr i k j := cr (ix3 i k j)
  uw k d := uw (ix2 k d)
  ub d := ub (ix1 d)

/-- The adapter on a [4, 4096, 2048] array: row (b, s) goes through `outRow`. -/
def result (x : (⟨3, ![4, 4096, 2048]⟩ : Shape).Idx → EReal) (W : Weights) :
    (⟨3, ![4, 4096, 2048]⟩ : Shape).Idx → EReal :=
  fun i => outRow W (fun k => x (ix3 (i 0) (i 1) k)) (i 2)

/-- The same on the flattened [16384, 2048] array: row r goes through `outRow`. -/
def resultFlat (x : (⟨2, ![16384, 2048]⟩ : Shape).Idx → EReal) (W : Weights) :
    (⟨2, ![16384, 2048]⟩ : Shape).Idx → EReal :=
  fun j => outRow W (fun k => x (ix2 (j 0) k)) (j 1)

end PolyAdapter

end
-- ==== Proof.FlatArray.lean ====
/-
  From the kernel's blocks to its result array, at the ideal instance.

  The kernel runs on the flattened [16384, 2048] array: grid point `t` of 64 reads rows 256·t … 256·t + 255 of it
  (window 0's block), reads each weight array whole (windows 1 … 6, whose block index never moves), and writes the same
  rows of the output array (window 7).  The body's block at row `p` is the adapter of `PolyAdapter` on row `p` of the
  block it loaded, that is, on row 256·t + p of the flattened array; so every point writes back its rows of ONE
  whole-array function, `PolyAdapter.resultFlat`, and the 64 blocks cover the array: row `r` lies in the block of
  point r / 256.

  Around the region the host flattens `x` from [4, 4096, 2048] (row (b, s) becomes row 4096·b + s), converts three
  weight arrays to a narrower float format (the identity on extended reals), and reshapes the output back; so the
  program's result at (b, s, d) is the adapter on row (b, s) of `x`: `PolyAdapter.result`.
-/
import proofs.«121496_j15994458211120_1_alg».proof.Proof.Gen.KernelIdeal.Frame
import proofs.«121496_j15994458211120_1_alg».proof.Proof.BodyPiece
import proofs.«121496_j15994458211120_1_alg».proof.Proof.Spec
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Flat

open Cert.KernelIdeal Cert.KernelIdeal.Gen Cert.KernelIdeal.Body

variable (m : (ℓ : Loc nD τ sig) → Buf (Elt Ideal) ℓ) (ρ : Dev nD → PrngReg)

/-- The body's block at row `p`, column `d` is the adapter on row `p` of the loaded block of `x`, with the loaded
    weight blocks as weights: the statement this module takes as given. -/
def BlockValue : Prop :=
  ∀ (x0 : Vec Ideal S256x2048 .f32) (x1 : Vec Ideal S2048x1024 .bf16) (x2 : Vec Ideal S1024 .f32)
    (x3 : Vec Ideal S6x1024 .f32) (x4 : Vec Ideal S5x1024x1024 .bf16) (x5 : Vec Ideal S1024x2048 .bf16)
    (x6 : Vec Ideal S2048 .f32) (p : Fin 256) (d : Fin 2048),
    blockTerm (F := Ideal) x0 x1 x2 x3 x4 x5 x6 (ix2 p d)
      = PolyAdapter.outRow (PolyAdapter.weightsOf x1 x2 x3 x4 x5 x6) (fun k => x0 (ix2 p k)) d

/-! ## The arrays as the region finds them -/

/-- The flattened `x`: the host's reshape of the first argument. -/
theorem flatX_eq (c : Dev nD) :
    (V m c main_v0 : S16384x2048.Idx → Elt Ideal .f32)
      = shapeCast S16384x2048 (m ((c.tc : Thread nD τ).loc main_arg0)) shapeCasts_S4x4096x2048_S16384x2048 := by
  show StableHlo.after hostOps0 (fun b => m (c, b)) (Proc.devRef .tc main_v0) = _
  after_results
  rfl

/-- The down-projection as the region finds it: the argument, its format change being the identity. -/
theorem downW_eq (c : Dev nD) :
    (V m c main_v1 : S2048x1024.Idx → EReal) = m ((c.tc : Thread nD τ).loc main_arg1) := by
  show StableHlo.after hostOps0 (fun b => m (c, b)) (Proc.devRef .tc main_v1) = _
  after_results
  rfl

/-- The cross matrices as the region finds them. -/
theorem crossW_eq (c : Dev nD) :
    (V m c main_v2 : S5x1024x1024.Idx → EReal) = m ((c.tc : Thread nD τ).loc main_arg4) := by
  show StableHlo.after hostOps0 (fun b => m (c, b)) (Proc.devRef .tc main_v2) = _
  after_results
  rfl

/-- The up-projection as the region finds it. -/
theorem upW_eq (c : Dev nD) :
    (V m c main_v3 : S1024x2048.Idx → EReal) = m ((c.tc : Thread nD τ).loc main_arg5) := by
  show StableHlo.after hostOps0 (fun b => m (c, b)) (Proc.devRef .tc main_v3) = _
  after_results
  rfl

/-- The weights as the region finds them. -/
abbrev regionWeights (c : Dev nD) : PolyAdapter.Weights :=
  PolyAdapter.weightsOf (V m c main_v1) (V m c main_arg2) (V m c main_arg3) (V m c main_v2) (V m c main_v3) (V m c main_arg6)

/-- The output array after the run: the adapter on every row of the flattened `x`. -/
abbrev flatResult (c : Dev nD) : S16384x2048.Idx → EReal :=
  PolyAdapter.resultFlat (V m c main_v0) (regionWeights m c)

/-! ## The windows' block indices, decided once over the grid -/

/-- Windows 0 and 7 move down the rows with the point; the six weight windows stay at block 0. -/
theorem index_facts : ∀ t : Fin cfg0.N,
    win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 3) = 0 ∧ win0_4.index t (1 : Fin 3) = 0 ∧ win0_4.index t (2 : Fin 3) = 0
    ∧ win0_5.index t (0 : Fin 2) = 0 ∧ win0_5.index t (1 : Fin 2) = 0
    ∧ win0_6.index t (0 : Fin 1) = 0 :=
  (by decide +kernel : ∀ t : Fin grid0.N, _)

/-- Row `p` of point `t`'s block is row 256·t + p of the array. -/
def rowOf (t : Fin cfg0.N) (p : Fin 256) : Fin 16384 :=
  ⟨256 * t.val + p.val, by have hN : cfg0.N = 64 := N_0; have := t.isLt; have := p.isLt; omega⟩

/-! ## The input blocks -/

/-- Point `t`'s block of the flattened `x` at (p, k) is the array at (256·t + p, k). -/
theorem xBlock_apply (c : Dev nD) (t : Fin cfg0.N) (p : Fin 256) (k : Fin 2048) :
    (iblk m c 0 t : Vec Ideal S256x2048 .f32) (ix2 p k) = V m c main_v0 (ix2 (rowOf t p) k) := by
  obtain ⟨e0, e1, -⟩ := index_facts t
  show V m c main_v0 (((cfg0.win 0).blk t).view.emb (ix2 p k)) = V m c main_v0 (ix2 (rowOf t p) k)
  congr 1
  funext a; apply Fin.ext
  match a with
  | ⟨0, _⟩ => show win0_0.index t (0 : Fin 2) * 256 + 1 * p.val = 256 * t.val + p.val; rw [e0]; omega
  | ⟨1, _⟩ => show win0_0.index t (1 : Fin 2) * 2048 + 1 * k.val = k.val; rw [e1]; omega

/-- Each weight window's block is its whole array. -/
theorem downBlock_eq (c : Dev nD) (t : Fin cfg0.N) : (iblk m c 1 t : Vec Ideal S2048x1024 .bf16) = V m c main_v1 := by
  obtain ⟨-, -, -, -, e0, e1, -⟩ := index_facts t
  funext y
  show V m c main_v1 (((cfg0.win 1).blk t).view.emb y) = V m c main_v1 y
  congr 1
  funext a; apply Fin.ext
  match a with
  | ⟨0, _⟩ => show win0_1.index t (0 : Fin 2) * 2048 + 1 * (y 0).val = (y 0).val; rw [e0]; omega
  | ⟨1, _⟩ => show win0_1.index t (1 : Fin 2) * 1024 + 1 * (y 1).val = (y 1).val; rw [e1]; omega

theorem downBiasBlock_eq (c : Dev nD) (t : Fin cfg0.N) : (iblk m c 2 t : Vec Ideal S1024 .f32) = V m c main_arg2 := by
  obtain ⟨-, -, -, -, -, -, e0, -⟩ := index_facts t
  funext y
  show V m c main_arg2 (((cfg0.win 2).blk t).view.emb y) = V m c main_arg2 y
  congr 1
  funext a; apply Fin.ext
  match a with
  | ⟨0, _⟩ => show win0_2.index t (0 : Fin 1) * 1024 + 1 * (y 0).val = (y 0).val; rw [e0]; omega

theorem coeffBlock_eq (c : Dev nD) (t : Fin cfg0.N) : (iblk m c 3 t : Vec Ideal S6x1024 .f32) = V m c main_arg3 := by
  obtain ⟨-, -, -, -, -, -, -, e0, e1, -⟩ := index_facts t
  funext y
  show V m c main_arg3 (((cfg0.win 3).blk t).view.emb y) = V m c main_arg3 y
  congr 1
  funext a; apply Fin.ext
  match a with
  | ⟨0, _⟩ => show win0_3.index t (0 : Fin 2) * 6 + 1 * (y 0).val = (y 0).val; rw [e0]; omega
  | ⟨1, _⟩ => show win0_3.index t (1 : Fin 2) * 1024 + 1 * (y 1).val = (y 1).val; rw [e1]; omega

theorem crossBlock_eq (c : Dev nD) (t : Fin cfg0.N) : (iblk m c 4 t : Vec Ideal S5x1024x1024 .bf16) = V m c main_v2 := by
  obtain ⟨-, -, -, -, -, -, -, -, -, e0, e1, e2, -⟩ := index_facts t
  funext y
  show V m c main_v2 (((cfg0.win 4).blk t).view.emb y) = V m c main_v2 y
  congr 1
  funext a; apply Fin.ext
  match a with
  | ⟨0, _⟩ => show win0_4.index t (0 : Fin 3) * 5 + 1 * (y 0).val = (y 0).val; rw [e0]; omega
  | ⟨1, _⟩ => show win0_4.index t (1 : Fin 3) * 1024 + 1 * (y 1).val = (y 1).val; rw [e1]; omega
  | ⟨2, _⟩ => show win0_4.index t (2 : Fin 3) * 1024 + 1 * (y 2).val = (y 2).val; rw [e2]; omega

theorem upBlock_eq (c : Dev nD) (t : Fin cfg0.N) : (iblk m c 5 t : Vec Ideal S1024x2048 .bf16) = V m c main_v3 := by
  obtain ⟨-, -, -, -, -, -, -, -, -, -, -, -, e0, e1, -⟩ := index_facts t
  funext y
  show V m c main_v3 (((cfg0.win 5).blk t).view.emb y) = V m c main_v3 y
  congr 1
  funext a; apply Fin.ext
  match a with
  | ⟨0, _⟩ => show win0_5.index t (0 : Fin 2) * 1024 + 1 * (y 0).val = (y 0).val; rw [e0]; omega
  | ⟨1, _⟩ => show win0_5.index t (1 : Fin 2) * 2048 + 1 * (y 1).val = (y 1).val; rw [e1]; omega

theorem upBiasBlock_eq (c : Dev nD) (t : Fin cfg0.N) : (iblk m c 6 t : Vec Ideal S2048 .f32) = V m c main_arg6 := by
  obtain ⟨-, -, -, -, -, -, -, -, -, -, -, -, -, -, e0⟩ := index_facts t
  funext y
  show V m c main_arg6 (((cfg0.win 6).blk t).view.emb y) = V m c main_arg6 y
  congr 1
  funext a; apply Fin.ext
  match a with
  | ⟨0, _⟩ => show win0_6.index t (0 : Fin 1) * 2048 + 1 * (y 0).val = (y 0).val; rw [e0]; omega

/-! ## What each point writes back, and the cover -/

/-- Point `t` writes back rows 256·t … 256·t + 255 of `flatResult`. -/
theorem flushed_eq (hv : BlockValue) (c : Dev nD) (t : Fin cfg0.N) :
    (dats m 0 c).flushed 7 t = ((cfg0.win 7).blk t).view.read (Elt Ideal) (flatResult m c) := by
  show (cfg0.win 7).cut (grid0.coords t) ((dats m 0 c).after 7 t) = _
  rw [after0_7]
  unfold outsAt0
  rw [out_eq_blockTerm]
  obtain ⟨-, -, e0, e1, -⟩ := index_facts t
  funext y
  obtain ⟨p, d, rfl⟩ : ∃ (p : Fin 256) (d : Fin 2048), y = ix2 p d := ⟨y 0, y 1, eq_ix2 y⟩
  have hemb : ((cfg0.win 7).blk t).view.emb (ix2 p d) = ix2 (rowOf t p) d := by
    funext a; apply Fin.ext
    match a with
    | ⟨0, _⟩ => show win0_7.index t (0 : Fin 2) * 256 + 1 * p.val = 256 * t.val + p.val; rw [e0]; omega
    | ⟨1, _⟩ => show win0_7.index t (1 : Fin 2) * 2048 + 1 * d.val = d.val; rw [e1]; omega
  show blockTerm (F := Ideal) (iblk m c 0 t) (iblk m c 1 t) (iblk m c 2 t) (iblk m c 3 t) (iblk m c 4 t) (iblk m c 5 t) (iblk m c 6 t) (ix2 p d)
    = flatResult m c (((cfg0.win 7).blk t).view.emb (ix2 p d))
  rw [hv, hemb, downBlock_eq, downBiasBlock_eq, coeffBlock_eq, crossBlock_eq, upBlock_eq, upBiasBlock_eq]
  have hrow : (fun k : Fin 2048 => (iblk m c 0 t : Vec Ideal S256x2048 .f32) (ix2 p k))
      = fun k : Fin 2048 => V m c main_v0 (ix2 (rowOf t p) k) := funext fun k => xBlock_apply m c t p k
  rw [hrow]
  rfl

/-- An index of the output array is in point `t`'s block iff each coordinate is in the block's range. -/
theorem mem_block (t : Fin cfg0.N) (i : S16384x2048.Idx) :
    i ∈ ((cfg0.win 7).blk t).view.set ↔ ∀ a : Fin 2, win0_7.index t a * S256x2048.size a ≤ (i a).val
      ∧ (i a).val < win0_7.index t a * S256x2048.size a + S256x2048.size a := by
  show i ∈ ((View.whole main_v4).slice (win0_7.rect t)).set ↔ _
  rw [View.set_slice_whole, Rect.mem_set_unit]
  exact Iff.rfl

/-- The output array after the run is `flatResult`: row `r` is written by point r / 256. -/
theorem final (hv : BlockValue) (c : Dev nD) : (dats m 0 c).arrAt 7 cfg0.N = flatResult m c :=
  (dats m 0 c).arrAt_eq_of_cover 7 (flatResult m c) (fun t _ => flushed_eq m hv c t) fun i => by
    have hN : cfg0.N = 64 := N_0
    have hi0 : (i 0).val < 16384 := (i 0).isLt
    have hi1 : (i 1).val < 2048 := (i 1).isLt
    refine ⟨⟨(i 0).val / 256, by omega⟩, flush0_7 _, ?_⟩
    obtain ⟨-, -, e0, e1, -⟩ := index_facts ⟨(i 0).val / 256, by omega⟩
    rw [mem_block]
    intro a
    match a with
    | ⟨0, _⟩ =>
      show win0_7.index _ (0 : Fin 2) * 256 ≤ (i 0).val ∧ (i 0).val < win0_7.index _ (0 : Fin 2) * 256 + 256
      rw [e0]; dsimp only; omega
    | ⟨1, _⟩ =>
      show win0_7.index _ (1 : Fin 2) * 2048 ≤ (i 1).val ∧ (i 1).val < win0_7.index _ (1 : Fin 2) * 2048 + 2048
      rw [e1]; omega

end Cert.KernelIdeal.Flat

end
-- ==== Proof.KernelRun.lean ====
/-
  The kernel program's run, read as a value, at the ideal instance.

  After the region the host reshapes the [16384, 2048] output array back to [4, 4096, 2048]: entry (b, s, d) of the
  result is entry (4096·b + s, d) of the array, the same row-major position.  The array holds the adapter on every
  row of the flattened `x`, and row 4096·b + s of the flattened `x` is row (b, s) of `x` (the first reshape, read the
  same way); the weight arrays the region reads are the arguments themselves.  So the program's result is
  `PolyAdapter.result` of its seven arguments, and its arguments end unchanged.
-/
import proofs.«121496_j15994458211120_1_alg».proof.Proof.FlatArray

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Flat

open Cert.KernelIdeal Cert.KernelIdeal.Gen Cert.KernelIdeal.Body

variable (m : (ℓ : Loc nD τ sig) → Buf (Elt Ideal) ℓ) (ρ : Dev nD → PrngReg)

/-- Row (b, s) of `x` is row 4096·b + s of the flattened array. -/
def flatRow (b : Fin 4) (s : Fin 4096) : Fin 16384 :=
  ⟨4096 * b.val + s.val, by have := b.isLt; have := s.isLt; omega⟩

/-- The flattened `x` at (4096·b + s, k) is `x` at (b, s, k). -/
theorem flatX_apply (c : Dev nD) (b : Fin 4) (s : Fin 4096) (k : Fin 2048) :
    V m c main_v0 (ix2 (flatRow b s) k) = m ((c.tc : Thread nD τ).loc main_arg0) (ix3 b s k) := by
  rw [flatX_eq]
  refine shapeCast_apply _ _ _ _ ?_
  show (S4x4096x2048.rowMajor (ix3 b s k)).val = (S16384x2048.rowMajor (ix2 (flatRow b s) k)).val
  rw [Shape.rowMajor_val_three, Shape.rowMajor_val_two]
  show (b.val * 4096 + s.val) * 2048 + k.val = (4096 * b.val + s.val) * 2048 + k.val
  omega

/-- The weights the region finds are the arguments'. -/
theorem regionWeights_eq (c : Dev nD) : regionWeights m c = (PolyAdapter.weightsOf (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := by
  unfold regionWeights
  rw [downW_eq, crossW_eq, upW_eq, V_main_arg2, V_main_arg3, V_main_arg6]

/-- The result buffer after the lines that follow the region: the adapter on every row of `x`. -/
theorem result_eq (hv : BlockValue) (c : Dev nD) :
    Pipeline.afterTail₀ cfgs (dats m) 0 (V0 m) [hostOps1] c main_v5
      = PolyAdapter.result (m ((c.tc : Thread nD τ).loc main_arg0)) (PolyAdapter.weightsOf (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := by
  unfold Pipeline.afterTail₀
  show StableHlo.after hostOps1 _ (Proc.devRef .tc main_v5) = _
  after_results
  have hw : Pipeline.withArrays (cfgs 0).spec c (V0 m c) (fun w => (dats m 0 c).arrAt w (cfgs 0).N) (Proc.devRef .tc main_v4)
      = flatResult m c :=
    (Pipeline.withArrays_arr spec0 launch0.win.arr_inj c _ _ 7).trans (final m hv c)
  funext i
  obtain ⟨b, s, d, rfl⟩ : ∃ (b : Fin 4) (s : Fin 4096) (d : Fin 2048), i = ix3 b s d := ⟨i 0, i 1, i 2, eq_ix3 i⟩
  show shapeCast S4x4096x2048 (Pipeline.withArrays (cfgs 0).spec c (V0 m c) (fun w => (dats m 0 c).arrAt w (cfgs 0).N)
      (Proc.devRef .tc main_v4)) shapeCasts_S16384x2048_S4x4096x2048 (ix3 b s d) = _
  rw [hw]
  have hcast : shapeCast S4x4096x2048 (flatResult m c) shapeCasts_S16384x2048_S4x4096x2048 (ix3 b s d)
      = flatResult m c (ix2 (flatRow b s) d) := by
    refine shapeCast_apply _ _ _ _ ?_
    show (S16384x2048.rowMajor (ix2 (flatRow b s) d)).val = (S4x4096x2048.rowMajor (ix3 b s d)).val
    rw [Shape.rowMajor_val_three, Shape.rowMajor_val_two]
    show (4096 * b.val + s.val) * 2048 + d.val = (b.val * 4096 + s.val) * 2048 + d.val
    omega
  rw [hcast]
  show PolyAdapter.outRow (regionWeights m c) (fun k => V m c main_v0 (ix2 (flatRow b s) k)) d
    = PolyAdapter.outRow (PolyAdapter.weightsOf (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (fun k => m ((c.tc : Thread nD τ).loc main_arg0) (ix3 b s k)) d
  rw [regionWeights_eq, show (fun k : Fin 2048 => V m c main_v0 (ix2 (flatRow b s) k))
      = fun k : Fin 2048 => m ((c.tc : Thread nD τ).loc main_arg0) (ix3 b s k) from funext fun k => flatX_apply m c b s k]

/-- THE RUN, READ: every weakly fair execution of the program ends with the result buffer at the adapter of the
    arguments, row by row, and the seven arguments unchanged. -/
theorem run (hv : BlockValue) :
    θ_run defs (onTc (τ := τ) (main (F := Ideal))) ⟨m, fun _ => 0, ρ⟩ fun r => ∀ c : Dev nD,
      r.2.mem ((c.tc : Thread nD τ).loc main_v5) = PolyAdapter.result (m ((c.tc : Thread nD τ).loc main_arg0)) (PolyAdapter.weightsOf (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v5 (Pipeline.mem_restRefs_of main_v5 (by decide) (by decide))).trans (result_eq m hv c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      ((h c).1 6).trans (((dats m 0 c).arrAt_in 6 rfl _).trans ((A_eq m c 6).trans (V_main_arg6 m c)))⟩) (run_main m ρ)

end Cert.KernelIdeal.Flat

end
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.BodyValue.lean ====
/-
  The block the kernel body stores, read at one index, is the polynomial adapter on that row.

  Fix a row p of the loaded [256, 2048] block, x = (x0 (p, k))_k, and let W be the six loaded weight blocks read at
  their coordinates.  The body's stages, each read at row p and column j, are the adapter's own quantities for x:

      the projected rows and the power buffer's first contents     h j = (∑ k, x k * dw k j) + db j,
      the power buffer after i multiplications by h                h^(i+1) j, entry by entry,
      the accumulator after its power term of degree i             acc j + h^(i+1) j * co i j,
      the accumulator after its cross term of degree i             acc j + (∑ k, h^(i+1) k * cr i k j) * h j,
      the stored block at column d                                 ((∑ k, acc k * uw k d) + ub d) + x d.

  Every stage is proved from the one before it by reading the stage's own operations at the index: a product, a sum
  and a format change act entry by entry, a cast to the same shape changes nothing, a row cast to [1, 1024] and
  repeated down the 256 rows reads its entry j at every row, a matrix product into the zero accumulator reads at
  (p, j) the sum over k of left (p, k) times right (k, j), and a row (a matrix) loaded through a unit-stride
  rectangle at offset (r, 0) (at (r, 0, 0)) reads row r (matrix r) of the array.  The sums and products come out in
  the order in which the adapter writes them, so each step closes by unfolding the adapter's definitions.
-/
import proofs.«121496_j15994458211120_1_alg».proof.Proof.BodyTerm
import proofs.«121496_j15994458211120_1_alg».proof.Proof.Spec
import proofs.«121496_j15994458211120_1_alg».proof.Proof.LibPlainDot
import Idealize.ShloMosaic.Lib.ValueLayout
import Idealize.ShloMosaic.PureOps.Ideal.Laws

noncomputable section
open Idealize.ShloMosaic Idealize.ShloMosaic.ValueIdx
namespace Cert.KernelIdeal.Body
open Cert.KernelIdeal Cert.KernelIdeal.Gen

/-! ## Loaded rows and matrices -/

/-- A [1, 1024] block loaded from a [6, 1024] array through the unit-stride rectangle at offset (r, 0) reads, at
    (0, j), the array at (r, j): coordinate a of the rectangle's index is offset a + 1 * (block coordinate a). -/
theorem unitRow_apply (X : Vec Ideal S6x1024 .f32) (r : Nat) (hr : r < 6)
    (inb : ∀ a, (![r, 0] : Fin 2 → Nat) a + S1x1024.size a ≤ S6x1024.size a) (j : Fin 1024) :
    View.ld X (Rect.unit (s := S6x1024) ![r, 0] S1x1024.size inb) (ix2 (0 : Fin 1) j) = X (ix2 (⟨r, hr⟩ : Fin 6) j) := by
  show X _ = X _
  congr 1
  funext a
  apply Fin.ext
  match a with
  | ⟨0, _⟩ =>
    show r + 1 * 0 = r
    omega
  | ⟨1, _⟩ =>
    show 0 + 1 * j.val = j.val
    omega

/-- A [1, 1024, 1024] block loaded from a [5, 1024, 1024] array through the unit-stride rectangle at offset
    (r, 0, 0) reads, at (0, k, j), the array at (r, k, j). -/
theorem unitMat_apply (X : Vec Ideal S5x1024x1024 .bf16) (r : Nat) (hr : r < 5)
    (inb : ∀ a, (![r, 0, 0] : Fin 3 → Nat) a + S1x1024x1024.size a ≤ S5x1024x1024.size a) (k j : Fin 1024) :
    View.ld X (Rect.unit (s := S5x1024x1024) ![r, 0, 0] S1x1024x1024.size inb) (ix3 (0 : Fin 1) k j)
      = X (ix3 (⟨r, hr⟩ : Fin 5) k j) := by
  show X _ = X _
  congr 1
  funext a
  apply Fin.ext
  match a with
  | ⟨0, _⟩ =>
    show r + 1 * 0 = r
    omega
  | ⟨1, _⟩ =>
    show 0 + 1 * k.val = k.val
    omega
  | ⟨2, _⟩ =>
    show 0 + 1 * j.val = j.val
    omega

/-- Coefficient row 0 as loaded is row 0 of the coefficient array. -/
theorem coRow0_apply (x3 : Vec Ideal S6x1024 .f32) (j : Fin 1024) :
    coRow0 x3 (ix2 (0 : Fin 1) j) = x3 (ix2 (0 : Fin 6) j) := unitRow_apply x3 0 (by omega) _ j
/-- Coefficient row 1 as loaded is row 1 of the coefficient array. -/
theorem coRow1_apply (x3 : Vec Ideal S6x1024 .f32) (j : Fin 1024) :
    coRow1 x3 (ix2 (0 : Fin 1) j) = x3 (ix2 (1 : Fin 6) j) := unitRow_apply x3 1 (by omega) _ j
/-- Coefficient row 2 as loaded is row 2 of the coefficient array. -/
theorem coRow2_apply (x3 : Vec Ideal S6x1024 .f32) (j : Fin 1024) :
    coRow2 x3 (ix2 (0 : Fin 1) j) = x3 (ix2 (2 : Fin 6) j) := unitRow_apply x3 2 (by omega) _ j
/-- Coefficient row 3 as loaded is row 3 of the coefficient array. -/
theorem coRow3_apply (x3 : Vec Ideal S6x1024 .f32) (j : Fin 1024) :
    coRow3 x3 (ix2 (0 : Fin 1) j) = x3 (ix2 (3 : Fin 6) j) := unitRow_apply x3 3 (by omega) _ j
/-- Coefficient row 4 as loaded is row 4 of the coefficient array. -/
theorem coRow4_apply (x3 : Vec Ideal S6x1024 .f32) (j : Fin 1024) :
    coRow4 x3 (ix2 (0 : Fin 1) j) = x3 (ix2 (4 : Fin 6) j) := unitRow_apply x3 4 (by omega) _ j
/-- Coefficient row 5 as loaded is row 5 of the coefficient array. -/
theorem coRow5_apply (x3 : Vec Ideal S6x1024 .f32) (j : Fin 1024) :
    coRow5 x3 (ix2 (0 : Fin 1) j) = x3 (ix2 (5 : Fin 6) j) := unitRow_apply x3 5 (by omega) _ j

/-- Cross matrix 0 as loaded is matrix 0 of the cross array. -/
theorem crMat0_apply (x4 : Vec Ideal S5x1024x1024 .bf16) (k j : Fin 1024) :
    crMat0 x4 (ix3 (0 : Fin 1) k j) = x4 (ix3 (0 : Fin 5) k j) := unitMat_apply x4 0 (by omega) _ k j
/-- Cross matrix 1 as loaded is matrix 1 of the cross array. -/
theorem crMat1_apply (x4 : Vec Ideal S5x1024x1024 .bf16) (k j : Fin 1024) :
    crMat1 x4 (ix3 (0 : Fin 1) k j) = x4 (ix3 (1 : Fin 5) k j) := unitMat_apply x4 1 (by omega) _ k j
/-- Cross matrix 2 as loaded is matrix 2 of the cross array. -/
theorem crMat2_apply (x4 : Vec Ideal S5x1024x1024 .bf16) (k j : Fin 1024) :
    crMat2 x4 (ix3 (0 : Fin 1) k j) = x4 (ix3 (2 : Fin 5) k j) := unitMat_apply x4 2 (by omega) _ k j
/-- Cross matrix 3 as loaded is matrix 3 of the cross array. -/
theorem crMat3_apply (x4 : Vec Ideal S5x1024x1024 .bf16) (k j : Fin 1024) :
    crMat3 x4 (ix3 (0 : Fin 1) k j) = x4 (ix3 (3 : Fin 5) k j) := unitMat_apply x4 3 (by omega) _ k j
/-- Cross matrix 4 as loaded is matrix 4 of the cross array. -/
theorem crMat4_apply (x4 : Vec Ideal S5x1024x1024 .bf16) (k j : Fin 1024) :
    crMat4 x4 (ix3 (0 : Fin 1) k j) = x4 (ix3 (4 : Fin 5) k j) := unitMat_apply x4 4 (by omega) _ k j

/-! ## The three matrix products, into the zero accumulator -/

/-- [256, 2048] by [2048, 1024]: at (p, j), the sum over k < 2048 of l (p, k) * r (k, j). -/
theorem matmulDown_apply (l : FVec Ideal S256x2048 .bf16) (r : FVec Ideal S2048x1024 .bf16) (p : Fin 256) (j : Fin 1024) :
    matmul (F := Ideal) dot_S256x2048_S2048x1024_S256x1024_1_0_0_1_n_n none l r (constant S256x1024 .f32 0x00000000#32) (ix2 p j)
      = ∑ k : Fin 2048, l (ix2 p k) * r (ix2 k j) := by
  show FloatOps.matmul _ _ _ _ _ _ = _
  rw [Ideal.matmul_constant_zero_apply]
  exact PlainDot.sum_eq dot_S256x2048_S2048x1024_S256x1024_1_0_0_1_n_n rfl rfl rfl rfl rfl rfl l r p j

/-- [256, 1024] by [1024, 1024]: at (p, j), the sum over k < 1024 of l (p, k) * r (k, j). -/
theorem matmulSq_apply (l : FVec Ideal S256x1024 .bf16) (r : FVec Ideal S1024x1024 .bf16) (p : Fin 256) (j : Fin 1024) :
    matmul (F := Ideal) dot_S256x1024_S1024x1024_S256x1024_1_0_0_1_n_n none l r (constant S256x1024 .f32 0x00000000#32) (ix2 p j)
      = ∑ k : Fin 1024, l (ix2 p k) * r (ix2 k j) := by
  show FloatOps.matmul _ _ _ _ _ _ = _
  rw [Ideal.matmul_constant_zero_apply]
  exact PlainDot.sum_eq dot_S256x1024_S1024x1024_S256x1024_1_0_0_1_n_n rfl rfl rfl rfl rfl rfl l r p j

/-- [256, 1024] by [1024, 2048]: at (p, d), the sum over k < 1024 of l (p, k) * r (k, d). -/
theorem matmulUp_apply (l : FVec Ideal S256x1024 .bf16) (r : FVec Ideal S1024x2048 .bf16) (p : Fin 256) (d : Fin 2048) :
    matmul (F := Ideal) dot_S256x1024_S1024x2048_S256x2048_1_0_0_1_n_n none l r (constant S256x2048 .f32 0x00000000#32) (ix2 p d)
      = ∑ k : Fin 1024, l (ix2 p k) * r (ix2 k d) := by
  show FloatOps.matmul _ _ _ _ _ _ = _
  rw [Ideal.matmul_constant_zero_apply]
  exact PlainDot.sum_eq dot_S256x1024_S1024x2048_S256x2048_1_0_0_1_n_n rfl rfl rfl rfl rfl rfl l r p d

/-- Reading a stage's operations at an index: entry-by-entry operations, same-shape casts, the row broadcast down the
    rows, the unit leading axis of a loaded matrix dropped, and the three matrix products. -/
local macro "payload_at" : tactic => `(tactic| simp only [shapeCast_self, addf_apply, mulf_apply, truncf_apply,
  broadcastTo_1b_ab_apply, shapeCast_a_1a_apply, shapeCast_1a_a_apply, shapeCast_1ab_ab_apply,
  matmulDown_apply, matmulSq_apply, matmulUp_apply])

/-- The zero fill reads the word +0.0 everywhere. -/
theorem zeroFill_apply (p : Fin 256) (j : Fin 1024) : k0_pay8 (F := Ideal) (ix2 p j) = PolyAdapter.zero := by
  unfold k0_pay8
  simp only [shapeCast_self, broadcast_apply]
  rfl

/-! ## The stages at row p -/

section Stages

variable (x0 : Vec Ideal S256x2048 .f32) (x1 : Vec Ideal S2048x1024 .bf16) (x2 : Vec Ideal S1024 .f32)
  (x3 : Vec Ideal S6x1024 .f32) (x4 : Vec Ideal S5x1024x1024 .bf16) (x5 : Vec Ideal S1024x2048 .bf16)
  (x6 : Vec Ideal S2048 .f32)

/-- Row p of the loaded block projected down: the adapter's h for that row. -/
abbrev hRow (p : Fin 256) : Fin 1024 → EReal :=
  PolyAdapter.down (PolyAdapter.weightsOf x1 x2 x3 x4 x5 x6) (fun k => x0 (ix2 p k))

local notation "𝒲" => PolyAdapter.weightsOf x1 x2 x3 x4 x5 x6
local notation "𝒽" => hRow x0 x1 x2 x3 x4 x5 x6

/-- The projected rows are h. -/
theorem hS_apply (p : Fin 256) (j : Fin 1024) : hS x0 x1 x2 (ix2 p j) = 𝒽 p j := by
  unfold hS k0_pay6 k0_pay5 k0_pay4
  payload_at
  rfl

/-- The power buffer first holds h. -/
theorem q0_apply (p : Fin 256) (j : Fin 1024) : q0 x0 x1 x2 (ix2 p j) = 𝒽 p j := by
  unfold q0 k0_pay7 k0_pay5 k0_pay4
  payload_at
  rfl

/-- The power buffer after one multiplication by h holds h². -/
theorem q1_apply (p : Fin 256) (j : Fin 1024) : q1 x0 x1 x2 (ix2 p j) = PolyAdapter.p1 (𝒽 p) j := by
  unfold q1 k0_pay11
  payload_at
  simp only [q0_apply x0 x1 x2 x3 x4 x5 x6, hS_apply x0 x1 x2 x3 x4 x5 x6]
  rfl

/-- … after two, h³. -/
theorem q2_apply (p : Fin 256) (j : Fin 1024) : q2 x0 x1 x2 (ix2 p j) = PolyAdapter.p2 (𝒽 p) j := by
  unfold q2 k0_pay15
  payload_at
  simp only [q1_apply x0 x1 x2 x3 x4 x5 x6, hS_apply x0 x1 x2 x3 x4 x5 x6]
  rfl

/-- … after three, h⁴. -/
theorem q3_apply (p : Fin 256) (j : Fin 1024) : q3 x0 x1 x2 (ix2 p j) = PolyAdapter.p3 (𝒽 p) j := by
  unfold q3 k0_pay19
  payload_at
  simp only [q2_apply x0 x1 x2 x3 x4 x5 x6, hS_apply x0 x1 x2 x3 x4 x5 x6]
  rfl

/-- … after four, h⁵. -/
theorem q4_apply (p : Fin 256) (j : Fin 1024) : q4 x0 x1 x2 (ix2 p j) = PolyAdapter.p4 (𝒽 p) j := by
  unfold q4 k0_pay23 k0_pay22
  payload_at
  simp only [q3_apply x0 x1 x2 x3 x4 x5 x6, hS_apply x0 x1 x2 x3 x4 x5 x6]
  rfl

/-- … after five, h⁶. -/
theorem q5_apply (p : Fin 256) (j : Fin 1024) : q5 x0 x1 x2 (ix2 p j) = PolyAdapter.p5 (𝒽 p) j := by
  unfold q5 k0_pay26
  payload_at
  simp only [q4_apply x0 x1 x2 x3 x4 x5 x6, hS_apply x0 x1 x2 x3 x4 x5 x6]
  rfl

/-- The accumulator after the power term of degree 0: zero + h * co 0. -/
theorem b1_apply (p : Fin 256) (j : Fin 1024) :
    b1 x0 x1 x2 x3 (ix2 p j) = PolyAdapter.withCoeff (fun _ => PolyAdapter.zero) (𝒽 p) ((𝒲).co 0) j := by
  unfold b1 k0_pay9
  payload_at
  simp only [q0_apply x0 x1 x2 x3 x4 x5 x6, coRow0_apply, zeroFill_apply]
  rfl

/-- … after the cross term of degree 0. -/
theorem b2_apply (p : Fin 256) (j : Fin 1024) : b2 x0 x1 x2 x3 x4 (ix2 p j) = PolyAdapter.a0 𝒲 (𝒽 p) j := by
  unfold b2 k0_pay10
  payload_at
  simp only [q0_apply x0 x1 x2 x3 x4 x5 x6, crMat0_apply, b1_apply x0 x1 x2 x3 x4 x5 x6, hS_apply x0 x1 x2 x3 x4 x5 x6]
  rfl

/-- … after the power term of degree 1. -/
theorem b3_apply (p : Fin 256) (j : Fin 1024) :
    b3 x0 x1 x2 x3 x4 (ix2 p j)
      = PolyAdapter.withCoeff (PolyAdapter.a0 𝒲 (𝒽 p)) (PolyAdapter.p1 (𝒽 p)) ((𝒲).co 1) j := by
  unfold b3 k0_pay12
  payload_at
  simp only [q1_apply x0 x1 x2 x3 x4 x5 x6, coRow1_apply, b2_apply x0 x1 x2 x3 x4 x5 x6]
  rfl

/-- … after the cross term of degree 1. -/
theorem b4_apply (p : Fin 256) (j : Fin 1024) : b4 x0 x1 x2 x3 x4 (ix2 p j) = PolyAdapter.a1 𝒲 (𝒽 p) j := by
  unfold b4 k0_pay14 k0_pay13
  payload_at
  simp only [q1_apply x0 x1 x2 x3 x4 x5 x6, crMat1_apply, b3_apply x0 x1 x2 x3 x4 x5 x6, hS_apply x0 x1 x2 x3 x4 x5 x6]
  rfl

/-- … after the power term of degree 2. -/
theorem b5_apply (p : Fin 256) (j : Fin 1024) :
    b5 x0 x1 x2 x3 x4 (ix2 p j)
      = PolyAdapter.withCoeff (PolyAdapter.a1 𝒲 (𝒽 p)) (PolyAdapter.p2 (𝒽 p)) ((𝒲).co 2) j := by
  unfold b5 k0_pay16
  payload_at
  simp only [q2_apply x0 x1 x2 x3 x4 x5 x6, coRow2_apply, b4_apply x0 x1 x2 x3 x4 x5 x6]
  rfl

/-- … after the cross term of degree 2. -/
theorem b6_apply (p : Fin 256) (j : Fin 1024) : b6 x0 x1 x2 x3 x4 (ix2 p j) = PolyAdapter.a2 𝒲 (𝒽 p) j := by
  unfold b6 k0_pay18 k0_pay17
  payload_at
  simp only [q2_apply x0 x1 x2 x3 x4 x5 x6, crMat2_apply, b5_apply x0 x1 x2 x3 x4 x5 x6, hS_apply x0 x1 x2 x3 x4 x5 x6]
  rfl

/-- … after the power term of degree 3. -/
theorem b7_apply (p : Fin 256) (j : Fin 1024) :
    b7 x0 x1 x2 x3 x4 (ix2 p j)
      = PolyAdapter.withCoeff (PolyAdapter.a2 𝒲 (𝒽 p)) (PolyAdapter.p3 (𝒽 p)) ((𝒲).co 3) j := by
  unfold b7 k0_pay20
  payload_at
  simp only [q3_apply x0 x1 x2 x3 x4 x5 x6, coRow3_apply, b6_apply x0 x1 x2 x3 x4 x5 x6]
  rfl

/-- … after the cross term of degree 3. -/
theorem b8_apply (p : Fin 256) (j : Fin 1024) : b8 x0 x1 x2 x3 x4 (ix2 p j) = PolyAdapter.a3 𝒲 (𝒽 p) j := by
  unfold b8 k0_pay21
  payload_at
  simp only [q3_apply x0 x1 x2 x3 x4 x5 x6, crMat3_apply, b7_apply x0 x1 x2 x3 x4 x5 x6, hS_apply x0 x1 x2 x3 x4 x5 x6]
  rfl

/-- … after the power term of degree 4. -/
theorem b9_apply (p : Fin 256) (j : Fin 1024) :
    b9 x0 x1 x2 x3 x4 (ix2 p j)
      = PolyAdapter.withCoeff (PolyAdapter.a3 𝒲 (𝒽 p)) (PolyAdapter.p4 (𝒽 p)) ((𝒲).co 4) j := by
  unfold b9 k0_pay24
  payload_at
  simp only [q4_apply x0 x1 x2 x3 x4 x5 x6, coRow4_apply, b8_apply x0 x1 x2 x3 x4 x5 x6]
  rfl

/-- … after the cross term of degree 4. -/
theorem b10_apply (p : Fin 256) (j : Fin 1024) : b10 x0 x1 x2 x3 x4 (ix2 p j) = PolyAdapter.a4 𝒲 (𝒽 p) j := by
  unfold b10 k0_pay25
  payload_at
  simp only [q4_apply x0 x1 x2 x3 x4 x5 x6, crMat4_apply, b9_apply x0 x1 x2 x3 x4 x5 x6, hS_apply x0 x1 x2 x3 x4 x5 x6]
  rfl

/-- … and after the power term of degree 5: the adapter's accumulator. -/
theorem b11_apply (p : Fin 256) (j : Fin 1024) : b11 x0 x1 x2 x3 x4 (ix2 p j) = PolyAdapter.acc 𝒲 (𝒽 p) j := by
  unfold b11 k0_pay1
  payload_at
  simp only [q5_apply x0 x1 x2 x3 x4 x5 x6, coRow5_apply, b10_apply x0 x1 x2 x3 x4 x5 x6]
  rfl

end Stages

/-- The stored block at row p and column d is the adapter on row p of the loaded block, at d: the accumulator
    projected up, plus the bias, plus the row's own entry. -/
theorem blockTerm_apply (x0 : Vec Ideal S256x2048 .f32) (x1 : Vec Ideal S2048x1024 .bf16) (x2 : Vec Ideal S1024 .f32)
    (x3 : Vec Ideal S6x1024 .f32) (x4 : Vec Ideal S5x1024x1024 .bf16) (x5 : Vec Ideal S1024x2048 .bf16)
    (x6 : Vec Ideal S2048 .f32) (p : Fin 256) (d : Fin 2048) :
    blockTerm (F := Ideal) x0 x1 x2 x3 x4 x5 x6 (ix2 p d)
      = PolyAdapter.outRow (PolyAdapter.weightsOf x1 x2 x3 x4 x5 x6) (fun k => x0 (ix2 p k)) d := by
  unfold blockTerm k0_pay3 k0_pay4
  payload_at
  simp only [b11_apply x0 x1 x2 x3 x4 x5 x6]
  rfl

end Cert.KernelIdeal.Body
end
-- ==== Proof.RefRow.lean ====
/-
  The reference program, read row by row, is the low-rank polynomial adapter.

  The reference works on a [4, 4096, 2048] array. Row (b, s) of that array is projected down to length 1024
  (a contraction with the 2048 × 1024 matrix, plus a bias broadcast along the row), the entrywise powers of the
  projected row are accumulated, each with its coefficient row and, below the last degree, with its cross matrix
  (a contraction over the 1024 entries), and the accumulator is projected back up (a contraction with the
  1024 × 2048 matrix, plus a bias) and added to the row itself.

  Each stage of the reference is an array over (b, s, j); this file reads every stage at explicit coordinates
  (b, s, j) and identifies it with the corresponding function of the row in `PolyAdapter`. A contraction is the sum
  over the contracted coordinate k of the left operand at (b, s, k) times the right operand at (k, j); a coefficient
  row is a slice of the 6 × 1024 array, reshaped and broadcast, so at (b, s, j) it is the array at (c, j); a cross
  matrix is a slice of the 5 × 1024 × 1024 array reshaped to 1024 × 1024, so at (k, j) it is the array at (c, k, j).
  Sums and products appear in the same order on both sides, so nothing beyond unfolding and re-indexing is used.
-/
import proofs.«121496_j15994458211120_1_alg».proof.Proof.Gen.ReferenceIdeal.Read
import proofs.«121496_j15994458211120_1_alg».proof.Proof.Spec

noncomputable section
open Idealize.ShloMosaic Idealize.ShloMosaic.ValueIdx
namespace Cert.ReferenceIdeal.RowValue
open Cert.ReferenceIdeal

/-- Two rank-1 indices are equal when their coordinate is. -/
local macro "coords1" : tactic =>
  `(tactic| (funext a; apply Fin.ext; match a with | ⟨0, _⟩ => rfl))
/-- Two rank-2 indices are equal when their two coordinates are. -/
local macro "coords2" : tactic =>
  `(tactic| (funext a; apply Fin.ext; match a with | ⟨0, _⟩ => rfl | ⟨1, _⟩ => rfl))
/-- Two rank-3 indices are equal when their three coordinates are. -/
local macro "coords3" : tactic =>
  `(tactic| (funext a; apply Fin.ext; match a with | ⟨0, _⟩ => rfl | ⟨1, _⟩ => rfl | ⟨2, _⟩ => rfl))

variable (x0 : (⟨S4x4096x2048, .f32⟩ : BufTy).Contents (Elt Ideal)) (x1 : (⟨S2048x1024, .f32⟩ : BufTy).Contents (Elt Ideal))
  (x2 : (⟨S1024, .f32⟩ : BufTy).Contents (Elt Ideal)) (x3 : (⟨S6x1024, .f32⟩ : BufTy).Contents (Elt Ideal))
  (x4 : (⟨S5x1024x1024, .f32⟩ : BufTy).Contents (Elt Ideal)) (x5 : (⟨S1024x2048, .f32⟩ : BufTy).Contents (Elt Ideal))
  (x6 : (⟨S2048, .f32⟩ : BufTy).Contents (Elt Ideal))

/-- The adapter's weights, read from the six weight arrays. -/
local notation "Wts" => PolyAdapter.weightsOf x1 x2 x3 x4 x5 x6

/-- Row (b, s) of the input array. -/
abbrev row (b : Fin 4) (s : Fin 4096) : Fin 2048 → EReal := fun k => x0 (ix3 b s k)

/-- Row (b, s) projected down: the vector all later stages are built from. -/
local notation "hrow" b:max s:max => PolyAdapter.down Wts (row x0 b s)

/-! ## The projected row -/

/-- The down-projection at (b, s, j): the row contracted with column j of the matrix, plus entry j of the bias. -/
theorem h_apply (b : Fin 4) (s : Fin 4096) (j : Fin 1024) :
    Read.val_main_v3 (F := Ideal) x0 x1 x2 (ix3 b s j) = (hrow b s) j := by
  rw [Read.val_main_v3_apply, Read.val_main_v0_apply, Read.val_main_v2_apply, Read.val_main_v1_apply]
  have e3 : Read.idx_main_v1 (Read.idx_main_v2 (ix3 b s j)) = ix1 j := by coords1
  have es : ∀ k : Fin 2048, x0 (Read.lidx_main_v0 (ix3 b s j) k) * x1 (Read.ridx_main_v0 (ix3 b s j) k)
      = x0 (ix3 b s k) * x1 (ix2 k j) := fun k => by
    have e1 : Read.lidx_main_v0 (ix3 b s j) k = ix3 b s k := by coords3
    have e2 : Read.ridx_main_v0 (ix3 b s j) k = ix2 k j := by coords2
    rw [e1, e2]
  rw [e3, Finset.sum_congr rfl (fun k _ => es k)]
  rfl

/-! ## The coefficient rows and the cross matrices -/

/-- The first coefficient row, sliced out of the 6 × 1024 array, flattened and broadcast over (b, s): at (b, s, j) it is
    the array at (0, j). -/
theorem co0_apply (b : Fin 4) (s : Fin 4096) (j : Fin 1024) :
    Read.val_main_v8 (F := Ideal) x3 (ix3 b s j) = x3 (ix2 (0 : Fin 6) j) := by
  rw [Read.val_main_v8_apply, Read.val_main_v7_apply, Read.val_main_v6_apply, Read.val_main_v5_apply]
  congr 1
  funext a; apply Fin.ext
  match a with
  | ⟨0, _⟩ => rfl
  | ⟨1, _⟩ => exact Nat.mod_eq_of_lt j.isLt

/-- The second coefficient row, sliced out of the 6 × 1024 array, flattened and broadcast over (b, s): at (b, s, j) it is
    the array at (1, j). -/
theorem co1_apply (b : Fin 4) (s : Fin 4096) (j : Fin 1024) :
    Read.val_main_v20 (F := Ideal) x3 (ix3 b s j) = x3 (ix2 (1 : Fin 6) j) := by
  rw [Read.val_main_v20_apply, Read.val_main_v19_apply, Read.val_main_v18_apply, Read.val_main_v17_apply]
  congr 1
  funext a; apply Fin.ext
  match a with
  | ⟨0, _⟩ => rfl
  | ⟨1, _⟩ => exact Nat.mod_eq_of_lt j.isLt

/-- The third coefficient row, sliced out of the 6 × 1024 array, flattened and broadcast over (b, s): at (b, s, j) it is
    the array at (2, j). -/
theorem co2_apply (b : Fin 4) (s : Fin 4096) (j : Fin 1024) :
    Read.val_main_v32 (F := Ideal) x3 (ix3 b s j) = x3 (ix2 (2 : Fin 6) j) := by
  rw [Read.val_main_v32_apply, Read.val_main_v31_apply, Read.val_main_v30_apply, Read.val_main_v29_apply]
  congr 1
  funext a; apply Fin.ext
  match a with
  | ⟨0, _⟩ => rfl
  | ⟨1, _⟩ => exact Nat.mod_eq_of_lt j.isLt

/-- The fourth coefficient row, sliced out of the 6 × 1024 array, flattened and broadcast over (b, s): at (b, s, j) it is
    the array at (3, j). -/
theorem co3_apply (b : Fin 4) (s : Fin 4096) (j : Fin 1024) :
    Read.val_main_v44 (F := Ideal) x3 (ix3 b s j) = x3 (ix2 (3 : Fin 6) j) := by
  rw [Read.val_main_v44_apply, Read.val_main_v43_apply, Read.val_main_v42_apply, Read.val_main_v41_apply]
  congr 1
  funext a; apply Fin.ext
  match a with
  | ⟨0, _⟩ => rfl
  | ⟨1, _⟩ => exact Nat.mod_eq_of_lt j.isLt

/-- The fifth coefficient row, sliced out of the 6 × 1024 array, flattened and broadcast over (b, s): at (b, s, j) it is
    the array at (4, j). -/
theorem co4_apply (b : Fin 4) (s : Fin 4096) (j : Fin 1024) :
    Read.val_main_v56 (F := Ideal) x3 (ix3 b s j) = x3 (ix2 (4 : Fin 6) j) := by
  rw [Read.val_main_v56_apply, Read.val_main_v55_apply, Read.val_main_v54_apply, Read.val_main_v53_apply]
  congr 1
  funext a; apply Fin.ext
  match a with
  | ⟨0, _⟩ => rfl
  | ⟨1, _⟩ => exact Nat.mod_eq_of_lt j.isLt

/-- The sixth coefficient row, sliced out of the 6 × 1024 array, flattened and broadcast over (b, s): at (b, s, j) it is
    the array at (5, j). -/
theorem co5_apply (b : Fin 4) (s : Fin 4096) (j : Fin 1024) :
    Read.val_main_v68 (F := Ideal) x3 (ix3 b s j) = x3 (ix2 (5 : Fin 6) j) := by
  rw [Read.val_main_v68_apply, Read.val_main_v67_apply, Read.val_main_v66_apply, Read.val_main_v65_apply]
  congr 1
  funext a; apply Fin.ext
  match a with
  | ⟨0, _⟩ => rfl
  | ⟨1, _⟩ => exact Nat.mod_eq_of_lt j.isLt

/-- The first cross matrix, sliced out of the 5 × 1024 × 1024 array and flattened to 1024 × 1024: at (k, j) it is the
    array at (0, k, j), because (k · 1024 + j) / 1024 = k and (k · 1024 + j) mod 1024 = j for j < 1024. -/
theorem cr0_apply (k j : Fin 1024) :
    Read.val_main_v12 (F := Ideal) x4 (ix2 k j) = x4 (ix3 (0 : Fin 5) k j) := by
  rw [Read.val_main_v12_apply, Read.val_main_v11_apply]
  congr 1
  have hk : k.val < 1024 := k.isLt
  have hj : j.val < 1024 := j.isLt
  funext a; apply Fin.ext
  match a with
  | ⟨0, _⟩ => rfl
  | ⟨1, _⟩ => show (k.val * 1024 + j.val) / 1024 % 1024 = k.val; omega
  | ⟨2, _⟩ => show (k.val * 1024 + j.val) % 1024 = j.val; omega

/-- The second cross matrix, sliced out of the 5 × 1024 × 1024 array and flattened to 1024 × 1024: at (k, j) it is the
    array at (1, k, j), because (k · 1024 + j) / 1024 = k and (k · 1024 + j) mod 1024 = j for j < 1024. -/
theorem cr1_apply (k j : Fin 1024) :
    Read.val_main_v24 (F := Ideal) x4 (ix2 k j) = x4 (ix3 (1 : Fin 5) k j) := by
  rw [Read.val_main_v24_apply, Read.val_main_v23_apply]
  congr 1
  have hk : k.val < 1024 := k.isLt
  have hj : j.val < 1024 := j.isLt
  funext a; apply Fin.ext
  match a with
  | ⟨0, _⟩ => rfl
  | ⟨1, _⟩ => show (k.val * 1024 + j.val) / 1024 % 1024 = k.val; omega
  | ⟨2, _⟩ => show (k.val * 1024 + j.val) % 1024 = j.val; omega

/-- The third cross matrix, sliced out of the 5 × 1024 × 1024 array and flattened to 1024 × 1024: at (k, j) it is the
    array at (2, k, j), because (k · 1024 + j) / 1024 = k and (k · 1024 + j) mod 1024 = j for j < 1024. -/
theorem cr2_apply (k j : Fin 1024) :
    Read.val_main_v36 (F := Ideal) x4 (ix2 k j) = x4 (ix3 (2 : Fin 5) k j) := by
  rw [Read.val_main_v36_apply, Read.val_main_v35_apply]
  congr 1
  have hk : k.val < 1024 := k.isLt
  have hj : j.val < 1024 := j.isLt
  funext a; apply Fin.ext
  match a with
  | ⟨0, _⟩ => rfl
  | ⟨1, _⟩ => show (k.val * 1024 + j.val) / 1024 % 1024 = k.val; omega
  | ⟨2, _⟩ => show (k.val * 1024 + j.val) % 1024 = j.val; omega

/-- The fourth cross matrix, sliced out of the 5 × 1024 × 1024 array and flattened to 1024 × 1024: at (k, j) it is the
    array at (3, k, j), because (k · 1024 + j) / 1024 = k and (k · 1024 + j) mod 1024 = j for j < 1024. -/
theorem cr3_apply (k j : Fin 1024) :
    Read.val_main_v48 (F := Ideal) x4 (ix2 k j) = x4 (ix3 (3 : Fin 5) k j) := by
  rw [Read.val_main_v48_apply, Read.val_main_v47_apply]
  congr 1
  have hk : k.val < 1024 := k.isLt
  have hj : j.val < 1024 := j.isLt
  funext a; apply Fin.ext
  match a with
  | ⟨0, _⟩ => rfl
  | ⟨1, _⟩ => show (k.val * 1024 + j.val) / 1024 % 1024 = k.val; omega
  | ⟨2, _⟩ => show (k.val * 1024 + j.val) % 1024 = j.val; omega

/-- The fifth cross matrix, sliced out of the 5 × 1024 × 1024 array and flattened to 1024 × 1024: at (k, j) it is the
    array at (4, k, j), because (k · 1024 + j) / 1024 = k and (k · 1024 + j) mod 1024 = j for j < 1024. -/
theorem cr4_apply (k j : Fin 1024) :
    Read.val_main_v60 (F := Ideal) x4 (ix2 k j) = x4 (ix3 (4 : Fin 5) k j) := by
  rw [Read.val_main_v60_apply, Read.val_main_v59_apply]
  congr 1
  have hk : k.val < 1024 := k.isLt
  have hj : j.val < 1024 := j.isLt
  funext a; apply Fin.ext
  match a with
  | ⟨0, _⟩ => rfl
  | ⟨1, _⟩ => show (k.val * 1024 + j.val) / 1024 % 1024 = k.val; omega
  | ⟨2, _⟩ => show (k.val * 1024 + j.val) % 1024 = j.val; omega

/-! ## The contractions with the cross matrices -/

/-- The contraction of a stage with the first cross matrix at (b, s, j): the sum over k of the stage at (b, s, k)
    times the matrix at (k, j), once the stage on row (b, s) is known to be the vector `p`. -/
theorem dot0_apply (b : Fin 4) (s : Fin 4096) (j : Fin 1024) (p : Fin 1024 → EReal)
    (hp : ∀ k : Fin 1024, Read.val_main_v3 (F := Ideal) x0 x1 x2 (ix3 b s k) = p k) :
    Read.val_main_v13 (F := Ideal) x0 x1 x2 x4 (ix3 b s j) = ∑ k : Fin 1024, p k * x4 (ix3 (0 : Fin 5) k j) := by
  rw [Read.val_main_v13_apply]
  refine Finset.sum_congr rfl fun k _ => ?_
  have e1 : Read.lidx_main_v13 (ix3 b s j) k = ix3 b s k := by coords3
  have e2 : Read.ridx_main_v13 (ix3 b s j) k = ix2 k j := by coords2
  rw [e1, e2, hp k, cr0_apply]

/-- The contraction of a stage with the second cross matrix at (b, s, j): the sum over k of the stage at (b, s, k)
    times the matrix at (k, j), once the stage on row (b, s) is known to be the vector `p`. -/
theorem dot1_apply (b : Fin 4) (s : Fin 4096) (j : Fin 1024) (p : Fin 1024 → EReal)
    (hp : ∀ k : Fin 1024, Read.val_main_v16 (F := Ideal) x0 x1 x2 (ix3 b s k) = p k) :
    Read.val_main_v25 (F := Ideal) x0 x1 x2 x4 (ix3 b s j) = ∑ k : Fin 1024, p k * x4 (ix3 (1 : Fin 5) k j) := by
  rw [Read.val_main_v25_apply]
  refine Finset.sum_congr rfl fun k _ => ?_
  have e1 : Read.lidx_main_v25 (ix3 b s j) k = ix3 b s k := by coords3
  have e2 : Read.ridx_main_v25 (ix3 b s j) k = ix2 k j := by coords2
  rw [e1, e2, hp k, cr1_apply]

/-- The contraction of a stage with the third cross matrix at (b, s, j): the sum over k of the stage at (b, s, k)
    times the matrix at (k, j), once the stage on row (b, s) is known to be the vector `p`. -/
theorem dot2_apply (b : Fin 4) (s : Fin 4096) (j : Fin 1024) (p : Fin 1024 → EReal)
    (hp : ∀ k : Fin 1024, Read.val_main_v28 (F := Ideal) x0 x1 x2 (ix3 b s k) = p k) :
    Read.val_main_v37 (F := Ideal) x0 x1 x2 x4 (ix3 b s j) = ∑ k : Fin 1024, p k * x4 (ix3 (2 : Fin 5) k j) := by
  rw [Read.val_main_v37_apply]
  refine Finset.sum_congr rfl fun k _ => ?_
  have e1 : Read.lidx_main_v37 (ix3 b s j) k = ix3 b s k := by coords3
  have e2 : Read.ridx_main_v37 (ix3 b s j) k = ix2 k j := by coords2
  rw [e1, e2, hp k, cr2_apply]

/-- The contraction of a stage with the fourth cross matrix at (b, s, j): the sum over k of the stage at (b, s, k)
    times the matrix at (k, j), once the stage on row (b, s) is known to be the vector `p`. -/
theorem dot3_apply (b : Fin 4) (s : Fin 4096) (j : Fin 1024) (p : Fin 1024 → EReal)
    (hp : ∀ k : Fin 1024, Read.val_main_v40 (F := Ideal) x0 x1 x2 (ix3 b s k) = p k) :
    Read.val_main_v49 (F := Ideal) x0 x1 x2 x4 (ix3 b s j) = ∑ k : Fin 1024, p k * x4 (ix3 (3 : Fin 5) k j) := by
  rw [Read.val_main_v49_apply]
  refine Finset.sum_congr rfl fun k _ => ?_
  have e1 : Read.lidx_main_v49 (ix3 b s j) k = ix3 b s k := by coords3
  have e2 : Read.ridx_main_v49 (ix3 b s j) k = ix2 k j := by coords2
  rw [e1, e2, hp k, cr3_apply]

/-- The contraction of a stage with the fifth cross matrix at (b, s, j): the sum over k of the stage at (b, s, k)
    times the matrix at (k, j), once the stage on row (b, s) is known to be the vector `p`. -/
theorem dot4_apply (b : Fin 4) (s : Fin 4096) (j : Fin 1024) (p : Fin 1024 → EReal)
    (hp : ∀ k : Fin 1024, Read.val_main_v52 (F := Ideal) x0 x1 x2 (ix3 b s k) = p k) :
    Read.val_main_v61 (F := Ideal) x0 x1 x2 x4 (ix3 b s j) = ∑ k : Fin 1024, p k * x4 (ix3 (4 : Fin 5) k j) := by
  rw [Read.val_main_v61_apply]
  refine Finset.sum_congr rfl fun k _ => ?_
  have e1 : Read.lidx_main_v61 (ix3 b s j) k = ix3 b s k := by coords3
  have e2 : Read.ridx_main_v61 (ix3 b s j) k = ix2 k j := by coords2
  rw [e1, e2, hp k, cr4_apply]

/-! ## The powers of the projected row -/

/-- The square of the projected row, entry by entry. -/
theorem p1_apply (b : Fin 4) (s : Fin 4096) (j : Fin 1024) :
    Read.val_main_v16 (F := Ideal) x0 x1 x2 (ix3 b s j) = PolyAdapter.p1 (hrow b s) j := by
  rw [Read.val_main_v16_apply, h_apply x0 x1 x2 x3 x4 x5 x6]
  rfl

/-- The cube of the projected row: the previous power times the row, entry by entry. -/
theorem p2_apply (b : Fin 4) (s : Fin 4096) (j : Fin 1024) :
    Read.val_main_v28 (F := Ideal) x0 x1 x2 (ix3 b s j) = PolyAdapter.p2 (hrow b s) j := by
  rw [Read.val_main_v28_apply, p1_apply x0 x1 x2 x3 x4 x5 x6, h_apply x0 x1 x2 x3 x4 x5 x6]
  rfl

/-- The fourth power of the projected row: the previous power times the row, entry by entry. -/
theorem p3_apply (b : Fin 4) (s : Fin 4096) (j : Fin 1024) :
    Read.val_main_v40 (F := Ideal) x0 x1 x2 (ix3 b s j) = PolyAdapter.p3 (hrow b s) j := by
  rw [Read.val_main_v40_apply, p2_apply x0 x1 x2 x3 x4 x5 x6, h_apply x0 x1 x2 x3 x4 x5 x6]
  rfl

/-- The fifth power of the projected row: the previous power times the row, entry by entry. -/
theorem p4_apply (b : Fin 4) (s : Fin 4096) (j : Fin 1024) :
    Read.val_main_v52 (F := Ideal) x0 x1 x2 (ix3 b s j) = PolyAdapter.p4 (hrow b s) j := by
  rw [Read.val_main_v52_apply, p3_apply x0 x1 x2 x3 x4 x5 x6, h_apply x0 x1 x2 x3 x4 x5 x6]
  rfl

/-- The sixth power of the projected row: the previous power times the row, entry by entry. -/
theorem p5_apply (b : Fin 4) (s : Fin 4096) (j : Fin 1024) :
    Read.val_main_v64 (F := Ideal) x0 x1 x2 (ix3 b s j) = PolyAdapter.p5 (hrow b s) j := by
  rw [Read.val_main_v64_apply, p4_apply x0 x1 x2 x3 x4 x5 x6, h_apply x0 x1 x2 x3 x4 x5 x6]
  rfl

/-! ## The accumulator -/

/-- The accumulator after degree 0, from the zero array: the power term with the first coefficient row, then the cross
    term with the first cross matrix. -/
theorem a0_apply (b : Fin 4) (s : Fin 4096) (j : Fin 1024) :
    Read.val_main_v15 (F := Ideal) x0 x1 x2 x3 x4 (ix3 b s j) = PolyAdapter.a0 Wts (hrow b s) j := by
  rw [Read.val_main_v15_apply, Read.val_main_v10_apply, Read.val_main_v14_apply, Read.val_main_v9_apply,
    Read.val_main_v4_apply, Read.val_main_cst_apply,
    dot0_apply x0 x1 x2 x4 b s j (hrow b s) (fun k => h_apply x0 x1 x2 x3 x4 x5 x6 b s k),
    co0_apply, h_apply x0 x1 x2 x3 x4 x5 x6]
  rfl

/-- The accumulator after degree 1: the previous accumulator plus the power term with the second coefficient row,
    plus the cross term with the second cross matrix. -/
theorem a1_apply (b : Fin 4) (s : Fin 4096) (j : Fin 1024) :
    Read.val_main_v27 (F := Ideal) x0 x1 x2 x3 x4 (ix3 b s j) = PolyAdapter.a1 Wts (hrow b s) j := by
  rw [Read.val_main_v27_apply, Read.val_main_v22_apply, Read.val_main_v26_apply, Read.val_main_v21_apply,
    a0_apply x0 x1 x2 x3 x4 x5 x6,
    dot1_apply x0 x1 x2 x4 b s j (PolyAdapter.p1 (hrow b s)) (fun k => p1_apply x0 x1 x2 x3 x4 x5 x6 b s k),
    co1_apply, p1_apply x0 x1 x2 x3 x4 x5 x6, h_apply x0 x1 x2 x3 x4 x5 x6]
  rfl

/-- The accumulator after degree 2: the previous accumulator plus the power term with the third coefficient row,
    plus the cross term with the third cross matrix. -/
theorem a2_apply (b : Fin 4) (s : Fin 4096) (j : Fin 1024) :
    Read.val_main_v39 (F := Ideal) x0 x1 x2 x3 x4 (ix3 b s j) = PolyAdapter.a2 Wts (hrow b s) j := by
  rw [Read.val_main_v39_apply, Read.val_main_v34_apply, Read.val_main_v38_apply, Read.val_main_v33_apply,
    a1_apply x0 x1 x2 x3 x4 x5 x6,
    dot2_apply x0 x1 x2 x4 b s j (PolyAdapter.p2 (hrow b s)) (fun k => p2_apply x0 x1 x2 x3 x4 x5 x6 b s k),
    co2_apply, p2_apply x0 x1 x2 x3 x4 x5 x6, h_apply x0 x1 x2 x3 x4 x5 x6]
  rfl

/-- The accumulator after degree 3: the previous accumulator plus the power term with the fourth coefficient row,
    plus the cross term with the fourth cross matrix. -/
theorem a3_apply (b : Fin 4) (s : Fin 4096) (j : Fin 1024) :
    Read.val_main_v51 (F := Ideal) x0 x1 x2 x3 x4 (ix3 b s j) = PolyAdapter.a3 Wts (hrow b s) j := by
  rw [Read.val_main_v51_apply, Read.val_main_v46_apply, Read.val_main_v50_apply, Read.val_main_v45_apply,
    a2_apply x0 x1 x2 x3 x4 x5 x6,
    dot3_apply x0 x1 x2 x4 b s j (PolyAdapter.p3 (hrow b s)) (fun k => p3_apply x0 x1 x2 x3 x4 x5 x6 b s k),
    co3_apply, p3_apply x0 x1 x2 x3 x4 x5 x6, h_apply x0 x1 x2 x3 x4 x5 x6]
  rfl

/-- The accumulator after degree 4: the previous accumulator plus the power term with the fifth coefficient row,
    plus the cross term with the fifth cross matrix. -/
theorem a4_apply (b : Fin 4) (s : Fin 4096) (j : Fin 1024) :
    Read.val_main_v63 (F := Ideal) x0 x1 x2 x3 x4 (ix3 b s j) = PolyAdapter.a4 Wts (hrow b s) j := by
  rw [Read.val_main_v63_apply, Read.val_main_v58_apply, Read.val_main_v62_apply, Read.val_main_v57_apply,
    a3_apply x0 x1 x2 x3 x4 x5 x6,
    dot4_apply x0 x1 x2 x4 b s j (PolyAdapter.p4 (hrow b s)) (fun k => p4_apply x0 x1 x2 x3 x4 x5 x6 b s k),
    co4_apply, p4_apply x0 x1 x2 x3 x4 x5 x6, h_apply x0 x1 x2 x3 x4 x5 x6]
  rfl

/-- The accumulator after degree 5, which has a power term only. -/
theorem acc_apply (b : Fin 4) (s : Fin 4096) (j : Fin 1024) :
    Read.val_main_v70 (F := Ideal) x0 x1 x2 x3 x4 (ix3 b s j) = PolyAdapter.acc Wts (hrow b s) j := by
  rw [Read.val_main_v70_apply, Read.val_main_v69_apply, a4_apply x0 x1 x2 x3 x4 x5 x6, co5_apply, p5_apply x0 x1 x2 x3 x4 x5 x6]
  rfl

/-! ## The last stage -/

/-- The last stage at (b, s, d): the accumulator of row (b, s) contracted with column d of the up-projection, plus entry
    d of its bias, plus the input at (b, s, d). -/
theorem out_apply (b : Fin 4) (s : Fin 4096) (d : Fin 2048) :
    Read.val_main_v76 (F := Ideal) x0 x1 x2 x3 x4 x5 x6 (ix3 b s d) = PolyAdapter.outRow Wts (row x0 b s) d := by
  rw [Read.val_main_v76_apply, Read.val_main_v75_apply, Read.val_main_v72_apply, Read.val_main_v74_apply,
    Read.val_main_v73_apply]
  have e3 : Read.idx_main_v73 (Read.idx_main_v74 (ix3 b s d)) = ix1 d := by coords1
  have es : ∀ k : Fin 1024,
      Read.val_main_v70 (F := Ideal) x0 x1 x2 x3 x4 (Read.lidx_main_v72 (ix3 b s d) k) * x5 (Read.ridx_main_v72 (ix3 b s d) k)
        = PolyAdapter.acc Wts (hrow b s) k * x5 (ix2 k d) := fun k => by
    have e1 : Read.lidx_main_v72 (ix3 b s d) k = ix3 b s k := by coords3
    have e2 : Read.ridx_main_v72 (ix3 b s d) k = ix2 k d := by coords2
    rw [e1, e2, acc_apply x0 x1 x2 x3 x4 x5 x6]
  rw [e3, Finset.sum_congr rfl (fun k _ => es k)]
  rfl

/-- The reference's last stage, as a function of its seven argument arrays, is the adapter applied row by row. -/
theorem lastStage_eq (x0 : (⟨S4x4096x2048, .f32⟩ : BufTy).Contents (Elt Ideal)) (x1 : (⟨S2048x1024, .f32⟩ : BufTy).Contents (Elt Ideal))
    (x2 : (⟨S1024, .f32⟩ : BufTy).Contents (Elt Ideal)) (x3 : (⟨S6x1024, .f32⟩ : BufTy).Contents (Elt Ideal))
    (x4 : (⟨S5x1024x1024, .f32⟩ : BufTy).Contents (Elt Ideal)) (x5 : (⟨S1024x2048, .f32⟩ : BufTy).Contents (Elt Ideal))
    (x6 : (⟨S2048, .f32⟩ : BufTy).Contents (Elt Ideal)) :
    Cert.ReferenceIdeal.Read.val_main_v76 (F := Ideal) x0 x1 x2 x3 x4 x5 x6
      = PolyAdapter.result x0 (PolyAdapter.weightsOf x1 x2 x3 x4 x5 x6) := by
  funext i
  obtain ⟨b, s, d, rfl⟩ : ∃ (b : Fin 4) (s : Fin 4096) (d : Fin 2048), i = ix3 b s d :=
    ⟨i 0, i 1, i 2, ValueIdx.eq_ix3 i⟩
  exact out_apply x0 x1 x2 x3 x4 x5 x6 b s d

end Cert.ReferenceIdeal.RowValue
end
-- ==== Proof.lean ====
/-
  The certificate of a low-rank polynomial adapter kernel against its jnp reference, over the extended reals.

  Both programs compute, for every row (b, s) of `x` : [4, 4096, 2048], the function `PolyAdapter.outRow` of that
  row (Proof/Spec.lean): project the row down to length 1024, accumulate six power terms and five cross terms of
  the projected row in a fixed order, project the accumulator back up and add the row.  Every step acts on one row
  at a time, so the kernel's tiling of the flattened rows into 64 blocks of 256 and the reference's three-axis
  contractions are two ways of indexing the same rows; the kernel's narrower float format for the three weight
  matrices is the identity on extended reals; and both programs add and multiply in the same order, so no law of
  the extended reals beyond unfolding is needed and the precondition is never opened.

  The kernel side: what the body leaves in its output block (Proof/BodyPiece.lean), that block at an index
  (Proof/BodyValue.lean), the blocks as rows of one whole-array function and the cover (Proof/FlatArray.lean), the
  reshapes around the region and the run (Proof/KernelRun.lean).  The reference side: its last stage at an index
  (Proof/RefRow.lean) over the generated run of its host operations.  The three frames are the generated ones (the
  reference's is its generated run with the result dropped); the idealization rewrote nothing.
-/
import proofs.«121496_j15994458211120_1_alg».proof.Defs
import proofs.«121496_j15994458211120_1_alg».proof.Proof.Gen.Kernel
import proofs.«121496_j15994458211120_1_alg».proof.Proof.Gen.Kernel.Skeleton
import proofs.«121496_j15994458211120_1_alg».proof.Proof.Gen.Kernel.Launch
import proofs.«121496_j15994458211120_1_alg».proof.Proof.Gen.Kernel.Points
import proofs.«121496_j15994458211120_1_alg».proof.Proof.Gen.Kernel.Frame
import proofs.«121496_j15994458211120_1_alg».proof.Proof.Gen.KernelIdeal
import proofs.«121496_j15994458211120_1_alg».proof.Proof.Gen.KernelIdeal.Skeleton
import proofs.«121496_j15994458211120_1_alg».proof.Proof.Gen.KernelIdeal.Launch
import proofs.«121496_j15994458211120_1_alg».proof.Proof.Gen.KernelIdeal.Points
import proofs.«121496_j15994458211120_1_alg».proof.Proof.Gen.KernelIdeal.Frame
import proofs.«121496_j15994458211120_1_alg».proof.Proof.Gen.ReferenceIdeal
import proofs.«121496_j15994458211120_1_alg».proof.Proof.Gen.ReferenceIdeal.Run
import proofs.«121496_j15994458211120_1_alg».proof.Proof.Gen.ReferenceIdeal.Read
import proofs.«121496_j15994458211120_1_alg».proof.Proof.Gen.Pre_finite_inputs
import proofs.«121496_j15994458211120_1_alg».proof.Proof.KernelRun
import proofs.«121496_j15994458211120_1_alg».proof.Proof.BodyValue
import proofs.«121496_j15994458211120_1_alg».proof.Proof.RefRow
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the seven arguments both programs end with the result at the adapter of the arguments,
    row by row: the kernel by its run read as a value, the reference by its last stage read at an index. -/
theorem algebraic : Cert.algebraic_KernelIdeal_ReferenceIdeal := by
  intro m ρ m' ρ' _ hagree
  refine ⟨fun c => PolyAdapter.result (m ((c.tc : Thread Cert.KernelIdeal.nD Cert.KernelIdeal.τ).loc Cert.KernelIdeal.main_arg0))
      (PolyAdapter.weightsOf (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))),
    Cert.KernelIdeal.Flat.run m ρ Cert.KernelIdeal.Body.blockTerm_apply, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v76_eq, Cert.ReferenceIdeal.RowValue.lastStage_eq, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
